-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x256 .f32) (main_arg1 : FVec F S2048x8192 .f32) (main_arg2 : FVec F S8192x2048 .f32) (main_arg3 : FVec F S256x256 .f32) (main_arg4 : FVec F S256 .f32) (main_arg5 : FVec F S256x256 .f32) (main_arg6 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S256x8192 : Shape := ⟨2, ![256, 8192]⟩
abbrev S512x2048 : Shape := ⟨2, ![512, 2048]⟩
abbrev S512x256 : Shape := ⟨2, ![512, 256]⟩

abbrev nBuf : Space → Nat
  | .hbm => 11
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S2048x8192, .f32⟩
  | .hbm, ⟨2, _⟩ => ⟨S8192x2048, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S2048x256, .f32⟩
  | .hbm, ⟨10, _⟩ => ⟨S8192x256, .f32⟩
  | .local _ .vmem, ⟨0, _⟩ => ⟨S256x8192, .f32⟩
  | .local _ .vmem, ⟨1, _⟩ => ⟨S256x8192, .f32⟩
  | .local _ .vmem, ⟨2, _⟩ => ⟨S8192x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S512x2048, .f32⟩
  | .local _ .vmem, ⟨8, _⟩ => ⟨S512x2048, .f32⟩
  | .local _ .vmem, ⟨9, _⟩ => ⟨S256x256, .f32⟩
  | .local _ .vmem, ⟨10, _⟩ => ⟨S256x256, .f32⟩
  | .local _ .vmem, ⟨11, _⟩ => ⟨S512x256, .f32⟩
  | .local _ .vmem, ⟨12, _⟩ => ⟨S512x256, .f32⟩
  | .local _ .vmem, ⟨13, _⟩ => ⟨S8192x256, .bf16⟩
  | .local _ .vmem, ⟨14, _⟩ => ⟨S2048x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c256_i32 : BitVec 32 := 256#32
  let v25 : BitVec 32 := Scalar.muli arg0 c256_i32
  let v26 : Index := Scalar.indexCast v25
  let c0_15 : Index := 0#32
  ![v26.toNat, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S256x8192_S256x8192_0_0 : ∀ a, (![0, 0] : Fin 2 → Nat) a + S256x8192.size a ≤ S256x8192.size a
  h_S256x8192 : 0 < S256x8192.numel
  broadcasts_S1x256_S256x256 : S1x256.Broadcasts S256x256
  shapeCasts_S256x256_S256x256 : S256x256.ShapeCasts S256x256
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  dot_S8192x256_S256x256_S8192x256_1_0_0_1_n_n_wf : DotDims.WF S8192x256 S256x256 S8192x256 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  dot_S512x2048_S2048x256_S512x256_1_0_0_1_n_n_wf : DotDims.WF S512x2048 S2048x256 S512x256 [1] [0] [0] [1] [] []
  hrank0 : 0 < grid0.rank
  k0_off1_inb : ∀ i : grid0.Coords, ∀ (k0_h2 : k0_cond2 i = 1#1), ∀ a, (k0_off1 i) a + S256x256.size a ≤ S2048x256.size a
  k0_off1_packedbf16 : ∀ i : grid0.Coords, ∀ (k0_h2 : k0_cond2 i = 1#1), (Rect.unit (s := S2048x256) (k0_off1 i) S256x256.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S2048x8192.size a
  hwx0_0 : ∀ i : grid0.Coords, EltTy.bits .f32 = 32 ∨ (Rect.block (s := S2048x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S2048x256.size a
  hwx0_7 : ∀ i : grid0.Coords, EltTy.bits .f32 = 32 ∨ (Rect.block (s := S2048x256) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x256.size a
  hwx0_8 : ∀ i : grid0.Coords, EltTy.bits .f32 = 32 ∨ (Rect.block (s := S8192x256) S512x256.size (cc0_transform_8 i) (hinb0_8 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond3 i == 1#1) | ⟨_ + 9, h⟩ => absurd h (Nat.not_lt.2 (Nat.le_add_left _ _))

class Facts : Prop extends Facts₀ where

variable [Facts]
-- ==== ReferenceIdeal.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x8192, .f32⟩
  | .hbm, ⟨2, _⟩ => ⟨S8192x2048, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S1x256, .f32⟩
  | .hbm, ⟨17, _⟩ => ⟨S2048x256, .f32⟩
  | .hbm, ⟨18, _⟩ => ⟨S2048x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S2048x256 : S_.BroadcastsInDim S2048x256 (![] : Fin 0 → Fin S2048x256.rank)
  bcast_S1x256_S2048x256_0_1 : S1x256.BroadcastsInDim S2048x256 (![0, 1] : Fin 2 → Fin S2048x256.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S2048x8192_S8192x256_S2048x256_1_0_0_1_n_n_wf : DotDims.WF S2048x8192 S8192x256 S2048x256 [1] [0] [0] [1] [] []
  dot_S2048x256_S256x256_S2048x256_1_0_0_1_n_n_wf : DotDims.WF S2048x256 S256x256 S2048x256 [1] [0] [0] [1] [] []
  dot_S8192x2048_S2048x256_S8192x256_1_0_0_1_n_n_wf : DotDims.WF S8192x2048 S2048x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x8192_S8192x256_S2048x256_1_0_0_1_n_n : DotDims S2048x8192 S8192x256 S2048x256 where
  lhsContracting := [1]
  rhsContracting := [0]
  lhsNonContracting := [0]
  rhsNonContracting := [1]
  lhsBatch := []
  rhsBatch := []
  wf := dot_S2048x8192_S8192x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf

class Facts : Prop extends Facts₀ where

variable [Facts]
-- ==== Proof.KBody.lean ====
import proofs.«169483_g28836410425909_cont_9to1_1670_4_alg».proof.Proof.Gen.Kernel.Frame
import proofs.«169483_g28836410425909_cont_9to1_1670_4_alg».proof.Proof.Gen.Kernel.Skeleton
import Idealize.ShloMosaic.Lib.WritesUnit
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body, run once per shape of its three guards. A grid step is in exactly one of three
    phases: step 0 (project the nodes, then the first block of hyperedges), steps 1 to 7 (one more block
    of hyperedges each), steps 8 to 23 (one block of node outputs each). Each run names what every
    buffer the step writes holds afterwards, as a function of what the step read. -/

/-- The first guard: the grid coordinate is zero. -/
abbrev isFirst (i : grid0.Coords) : Prop := (Scalar.cmpi .ne (Scalar.extui (Scalar.cmpi .eq (BitVec.ofNat 32 (i 0).val) 0#32)) 0#32) = 1#1

theorem hz2 : (![0, 0] : Fin 2 → ℕ) = fun _ => 0 := by
  funext a; match a with | ⟨0, _⟩ => rfl | ⟨1, _⟩ => rfl

/-- One store through the whole-shape rectangle at zero offsets, read back, is its payload. -/
theorem read_store_whole {S : Shape} {e : EltTy} (v : View sig .tc .vmem S e) (f : v.ty.Contents (Elt F)) {off : Fin S.rank → ℕ}
    (hz : off = fun _ => 0) (inb : ∀ a, off a + S.size a ≤ S.size a) (w : S.Idx → Elt F e) :
    v.read (Elt F) (v.writes (Elt F) f [⟨Rect.unit off S.size inb, w⟩]) = w := by
  subst hz
  exact View.read_writes_whole v f w

/-- A [2048, 256] buffer holding `zz` after one store of a [256, 256] block at row offset `off 0`. -/
def rowsPut (arg11 : Memref sig .tc .vmem S2048x256 .bf16) (harg11 : arg11.IsWhole) (off : Fin 2 → ℕ)
    (inb : ∀ a, off a + S256x256.size a ≤ S2048x256.size a) (zz : Vec F S2048x256 .bf16) (blk : Vec F S256x256 .bf16) : Vec F S2048x256 .bf16 :=
  arg11.view.read (Elt F) (arg11.view.writes (Elt F) (harg11.unread zz) [⟨Rect.unit (s := S2048x256) off S256x256.size inb, blk⟩])

set_option maxHeartbeats 1000000 in
/-- Step 0: the node projection `h` fills the first scratch; the hyperedge block is computed from it and
    stored to the embedding window; its back-projection goes to rows of the second scratch. -/
theorem runA (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : isFirst i) (hc1 : k0_cond2 i = 1#1) (hc2 : ¬k0_cond3 i = 1#1)
    (x0 : Vec F S256x8192 .f32) (x1 : Vec F S8192x256 .f32) (x2 : Vec F S256x256 .f32) (x3 : Vec F S1x256 .f32) (x4 : Vec F S256x256 .f32) (x5 : Vec F S1x256 .f32)
    (zz : Vec F S2048x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg8 fullShare d) ∗ (∃ d, owns (c : Thread nD τ) arg10 fullShare d) ∗ owns (c : Thread nD τ) arg11 fullShare zz
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg8 fullShare (k0_pay2 x0 (k0_pay1 x1 x2 x3)) ∗ owns (c : Thread nD τ) arg10 fullShare (k0_pay1 x1 x2 x3)
            ∗ owns (c : Thread nD τ) arg11 fullShare (rowsPut arg11 harg11 (k0_off1 i) (k0_off1_inb i hc1) zz (k0_pay3 x0 (k0_pay1 x1 x2 x3) x4 x5))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (read_store_whole (S := S256x256) _ _ hz2 _ _).trans ?_
    sl_unfold_words
    simp only [View.readAt_eq_ld, harg1.read_unread, harg2.read_unread, harg3.read_unread, harg4.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  isplitl [HS0]
  · iexists _; isplitr; swap; · iexact HS0
    ipureintro
    refine (read_store_whole (S := S8192x256) _ _ hz2 _ _).trans ?_
    sl_unfold_words
    simp only [View.readAt_eq_ld, harg2.read_unread, harg3.read_unread, harg4.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  iexists _; isplitr; swap; · iexact HS1
  ipureintro
  sl_unfold_words
  simp only [View.readAt_eq_ld, harg1.read_unread, harg2.read_unread, harg3.read_unread, harg4.read_unread, harg5.read_unread, harg6.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  rfl

set_option maxHeartbeats 1000000 in
/-- Steps 1 to 7: one more block of hyperedges from the projection already in the first scratch. -/
theorem runB (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : ¬isFirst i) (hc1 : k0_cond2 i = 1#1) (hc2 : ¬k0_cond3 i = 1#1)
    (x0 : Vec F S256x8192 .f32) (x4 : Vec F S256x256 .f32) (x5 : Vec F S1x256 .f32)
    (hcur : Vec F S8192x256 .bf16) (zz : Vec F S2048x256 .bf16) (E : Set ℕ) (K : PUnit → sProp 𝕄) :
    iprop(owns (c : Thread nD τ) arg1 fullShare x0 ∗ owns (c : Thread nD τ) arg5 fullShare x4 ∗ owns (c : Thread nD τ) arg6 fullShare x5
        ∗ (∃ d, owns (c : Thread nD τ) arg8 fullShare d) ∗ owns (c : Thread nD τ) arg10 fullShare hcur ∗ owns (c : Thread nD τ) arg11 fullShare zz
        ∗ (iprop(owns (c : Thread nD τ) arg1 fullShare x0 ∗ owns (c : Thread nD τ) arg5 fullShare x4 ∗ owns (c : Thread nD τ) arg6 fullShare x5
            ∗ owns (c : Thread nD τ) arg8 fullShare (k0_pay2 x0 hcur) ∗ owns (c : Thread nD τ) arg10 fullShare hcur
            ∗ owns (c : Thread nD τ) arg11 fullShare (rowsPut arg11 harg11 (k0_off1 i) (k0_off1_inb i hc1) zz (k0_pay3 x0 hcur x4 x5))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f0, %hf0, H0⟩, ⟨%f4, %hf4, H4⟩, ⟨%f5, %hf5, H5⟩, ⟨%d7, %f7, -, H7⟩, ⟨%fs0, %hfs0, HS0⟩, ⟨%fs1, %hfs1, HS1⟩, Hk⟩
  obtain rfl := harg1.eq_unread hf0; obtain rfl := harg5.eq_unread hf4; obtain rfl := harg6.eq_unread hf5; obtain rfl := harg10.eq_unread hfs0; obtain rfl := harg11.eq_unread hfs1
  sl_exec (disch := first | exact hc0 | exact hc1 | exact hc2)
  sl_step
  iapply Hk
  isplitl [H0]
  · iexists _; isplitr; · ipureintro; exact harg1.read_unread _
    iexact H0
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (read_store_whole (S := S256x256) _ _ hz2 _ _).trans ?_
    sl_unfold_words
    simp only [View.readAt_eq_ld, harg1.read_unread, harg10.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  isplitl [HS0]
  · iexists _; isplitr; · ipureintro; exact harg10.read_unread _
    iexact HS0
  iexists _; isplitr; swap; · iexact HS1
  ipureintro
  sl_unfold_words
  simp only [View.readAt_eq_ld, harg1.read_unread, harg5.read_unread, harg6.read_unread, harg10.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  rfl

set_option maxHeartbeats 1000000 in
/-- Steps 8 to 23: one block of node outputs from the back-projection held in the second scratch. -/
theorem runC (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : ¬isFirst i) (hc1 : ¬k0_cond2 i = 1#1) (hc2 : k0_cond3 i = 1#1)
    (x6 : Vec F S512x2048 .f32) (z : Vec F S2048x256 .bf16) (E : Set ℕ) (K : PUnit → sProp 𝕄) :
    iprop(owns (c : Thread nD τ) arg7 fullShare x6 ∗ (∃ d, owns (c : Thread nD τ) arg9 fullShare d) ∗ owns (c : Thread nD τ) arg11 fullShare z
        ∗ (iprop(owns (c : Thread nD τ) arg7 fullShare x6 ∗ owns (c : Thread nD τ) arg9 fullShare (k0_pay4 x6 z) ∗ owns (c : Thread nD τ) arg11 fullShare z) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f6, %hf6, H6⟩, ⟨%d8, %f8, -, H8⟩, ⟨%fs1, %hfs1, HS1⟩, Hk⟩
  obtain rfl := harg7.eq_unread hf6; obtain rfl := harg11.eq_unread hfs1
  sl_exec (disch := first | exact hc0 | exact hc1 | exact hc2)
  sl_step
  iapply Hk
  isplitl [H6]
  · iexists _; isplitr; · ipureintro; exact harg7.read_unread _
    iexact H6
  isplitl [H8]
  · iexists _; isplitr; swap; · iexact H8
    ipureintro
    refine (read_store_whole (S := S512x256) _ _ hz2 _ _).trans ?_
    sl_unfold_words
    simp only [View.readAt_eq_ld, harg7.read_unread, harg11.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  iexists _; isplitr; · ipureintro; exact harg11.read_unread _
  iexact HS1

end Cert.Kernel.Body

end
-- ==== Proof.KData.lean ====
import proofs.«169483_g28836410425909_cont_9to1_1670_4_alg».proof.Proof.Gen.Kernel.Frame
import proofs.«169483_g28836410425909_cont_9to1_1670_4_alg».proof.Proof.Gen.Kernel.Skeleton
import proofs.«169483_g28836410425909_cont_9to1_1670_4_alg».proof.Proof.KBody
import Idealize.ShloMosaic.Lib.ValueIdx
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The blocks a step reads, and what the steps compute from them

  The grid has 24 steps. Window 0 (rows of H, 256 at a time) moves with the step up to step 7 and then
  stays; window 6 (rows of G, 512 at a time) stays at block 0 up to step 8 and then moves; windows 1 to 5
  (x, W₁, b₁, W₂, b₂) are whole arrays at every step. -/

theorem N24 : cfg0.N = 24 := N_0
theorem lt_N {n : ℕ} (h : n < 24) : n < cfg0.N := by rw [N24]; exact h

/-- Steps 0 and 7, and a step clamped to at most 7 (the embedding window's block index). -/
abbrev p0 : Fin cfg0.N := ⟨0, lt_N (by omega)⟩
abbrev p7 : Fin cfg0.N := ⟨7, lt_N (by omega)⟩
def clamp7 (t : Fin cfg0.N) : Fin cfg0.N := ⟨min t.val 7, lt_N (by omega)⟩

theorem clamp7_of_lt (t : Fin cfg0.N) (h : t.val < 8) : clamp7 t = t := Fin.ext (by show min t.val 7 = t.val; omega)
theorem clamp7_of_ge (t : Fin cfg0.N) (h : 8 ≤ t.val) : clamp7 t = p7 := Fin.ext (by show min t.val 7 = 7; omega)

/-- Each input window's block at a step, at its literal type. -/
abbrev hhBlk (c : Dev nD) (t : Fin cfg0.N) : Vec F S256x8192 .f32 := iblk m c 0 t
abbrev xBlk (c : Dev nD) (t : Fin cfg0.N) : Vec F S8192x256 .f32 := iblk m c 1 t
abbrev w1Blk (c : Dev nD) (t : Fin cfg0.N) : Vec F S256x256 .f32 := iblk m c 2 t
abbrev b1Blk (c : Dev nD) (t : Fin cfg0.N) : Vec F S1x256 .f32 := iblk m c 3 t
abbrev w2Blk (c : Dev nD) (t : Fin cfg0.N) : Vec F S256x256 .f32 := iblk m c 4 t
abbrev b2Blk (c : Dev nD) (t : Fin cfg0.N) : Vec F S1x256 .f32 := iblk m c 5 t
abbrev hgBlk (c : Dev nD) (t : Fin cfg0.N) : Vec F S512x2048 .f32 := iblk m c 6 t

/-- The node projection `h`, computed at step 0 and kept in the first scratch. -/
def hAll (c : Dev nD) : Vec F S8192x256 .bf16 := k0_pay1 (xBlk m c p0) (w1Blk m c p0) (b1Blk m c p0)
/-- The block of hyperedge embeddings step `t` computes (rows 256 t …). -/
def heBlk (c : Dev nD) (t : Fin cfg0.N) : Vec F S256x256 .f32 := k0_pay2 (hhBlk m c t) (hAll m c)
/-- Its back-projection, the block of `z` step `t` stores into the second scratch. -/
def zBlk (c : Dev nD) (t : Fin cfg0.N) : Vec F S256x256 .bf16 := k0_pay3 (hhBlk m c t) (hAll m c) (w2Blk m c t) (b2Blk m c t)
/-- All of `z`: row `r` is row `r mod 256` of the block step `r / 256` stored. -/
def zAll (c : Dev nD) : Vec F S2048x256 .bf16 := fun y =>
  zBlk m c ⟨(y 0).val / 256, lt_N (by have := idx2_lt0 y; omega)⟩ (ix2 ⟨(y 0).val % 256, Nat.mod_lt _ (by omega)⟩ (y 1))
/-- The block of node outputs step `t` (8 ≤ t) computes. -/
def outBlk (c : Dev nD) (t : Fin cfg0.N) : Vec F S512x256 .f32 := k0_pay4 (hgBlk m c t) (zAll m c)

/-! ## The schedule, decided over the grid -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The embedding window is idle from step 8 on, the output window before step 8. -/
theorem idle7 : ∀ t : Fin cfg0.N, cfg0.idle 7 (grid0.coords t) = decide (8 ≤ t.val) :=
  (by decide +kernel : ∀ t : Fin grid0.N, cfg0.idle 7 (grid0.coords t) = decide (8 ≤ t.val))
theorem idle8 : ∀ t : Fin cfg0.N, cfg0.idle 8 (grid0.coords t) = decide (t.val < 8) :=
  (by decide +kernel : ∀ t : Fin grid0.N, cfg0.idle 8 (grid0.coords t) = decide (t.val < 8))
/-- The embedding window is written back after steps 0 to 6 and after the last step; the output window after every step from 8 on. -/
theorem flush7 : ∀ t : Fin cfg0.N, (cfg0.win 7).flush t = decide (t.val < 7 ∨ t.val = 23) :=
  (by decide +kernel : ∀ t : Fin grid0.N, win0_7.flush t = decide (t.val < 7 ∨ t.val = 23))
theorem flush8 : ∀ t : Fin cfg0.N, (cfg0.win 8).flush t = decide (8 ≤ t.val) :=
  (by decide +kernel : ∀ t : Fin grid0.N, win0_8.flush t = decide (8 ≤ t.val))
/-- The three guards, decided over the grid. -/
theorem first_iff : ∀ t : Fin cfg0.N, isFirst (grid0.coords t) ↔ t.val = 0 :=
  (by decide +kernel : ∀ t : Fin grid0.N, isFirst (grid0.coords t) ↔ t.val = 0)
theorem cond2_iff : ∀ t : Fin cfg0.N, k0_cond2 (grid0.coords t) = 1#1 ↔ t.val < 8 :=
  (by decide +kernel : ∀ t : Fin grid0.N, k0_cond2 (grid0.coords t) = 1#1 ↔ t.val < 8)
theorem cond3_iff : ∀ t : Fin cfg0.N, k0_cond3 (grid0.coords t) = 1#1 ↔ 8 ≤ t.val :=
  (by decide +kernel : ∀ t : Fin grid0.N, k0_cond3 (grid0.coords t) = 1#1 ↔ 8 ≤ t.val)
/-- The row offset of the store into the second scratch at step `t` is `256 t`. -/
theorem off1_eq : ∀ t : Fin cfg0.N, k0_off1 (grid0.coords t) = ![256 * t.val, 0] :=
  (by decide +kernel : ∀ t : Fin grid0.N, k0_off1 (grid0.coords t) = ![256 * t.val, 0])

/-! ## The invariant between steps

  Before step 0 the two scratch buffers hold anything. After step `n` the first holds the projection `h`
  and the second agrees with `z` on its first `256 (n + 1)` rows. -/

abbrev scM0 : Memref sig .tc .vmem S8192x256 .bf16 := Memref.whole cc0_scratch0
abbrev scM1 : Memref sig .tc .vmem S2048x256 .bf16 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- `d` agrees with `z` on the rows below `256 n`. -/
def ZUpTo (c : Dev nD) (n : ℕ) (d : Vec F S2048x256 .bf16) : Prop :=
  ∀ y : S2048x256.Idx, (y 0).val < 256 * n → d y = zAll m c y

theorem ZUpTo_zero (c : Dev nD) (d : Vec F S2048x256 .bf16) : ZUpTo m c 0 d := fun y h => absurd h (by omega)

/-- From 8 blocks on, all of `z`. -/
theorem ZUpTo_full (c : Dev nD) {n : ℕ} (hn : 8 ≤ n) {d : Vec F S2048x256 .bf16} (h : ZUpTo m c n d) : d = zAll m c :=
  funext fun y => h y (by have := idx2_lt0 y; omega)

def Phi (c : Dev nD) : (n : ℕ) → n ≤ cfg0.N → sProp 𝕄
  | 0, _ => Pipeline.ΦA spec0 c
  | n + 1, _ => iprop(iprop(owns (c : Thread nD τ) scM0 fullShare (hAll m c) ∗ (∃ d, ⌜ZUpTo m c (n + 1) d⌝ ∗ owns (c : Thread nD τ) scM1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scM0 fullShare (hAll m c) ∗ (∃ d, ⌜ZUpTo m c (n + 1) d⌝ ∗ owns (c : Thread nD τ) scM1 fullShare d)) ∗ (∃ r, prngReg c r)) := rfl

theorem Phi_pos (c : Dev nD) (n : ℕ) (h : n ≤ cfg0.N) (hz : n ≠ 0) :
    Phi m c n h = iprop(iprop(owns (c : Thread nD τ) scM0 fullShare (hAll m c) ∗ (∃ d, ⌜ZUpTo m c n d⌝ ∗ owns (c : Thread nD τ) scM1 fullShare d)) ∗ (∃ r, prngReg c r)) := by
  cases n with
  | zero => exact absurd rfl hz
  | succ n => rfl

/-! ## The proof data -/

/-- On core `c`: the arrays as the region finds them; after the body at step `t` each input's buffer at its
    block, the embedding window's at the block of step `min t 7` (it is not touched after step 7), the output
    window's at the block of step `t`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => heBlk m c (clamp7 t)
    | ⟨8, _⟩ => outBlk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = heBlk m c (clamp7 t) := by dsimp only [dats]
theorem after8 (c : Dev nD) (t : Fin cfg0.N) : (dats m 0 c).after 8 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

end Cert.Kernel.Body

end
-- ==== Proof.KZStep.lean ====
import proofs.«169483_g28836410425909_cont_9to1_1670_4_alg».proof.Proof.Gen.Kernel.Frame
import proofs.«169483_g28836410425909_cont_9to1_1670_4_alg».proof.Proof.Gen.Kernel.Skeleton
import proofs.«169483_g28836410425909_cont_9to1_1670_4_alg».proof.Proof.KData
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A family of blocks read at equal steps and equal rows gives equal values. -/
theorem blk_congr (g : Fin cfg0.N → Vec F S256x256 .bf16) (t t' : Fin cfg0.N) (a a' : Fin 256) (b : Fin 256)
    (ht : t'.val = t.val) (ha : a'.val = a.val) : g t (ix2 a b) = g t' (ix2 a' b) := by
  obtain rfl : t' = t := Fin.ext ht
  obtain rfl : a' = a := Fin.ext ha
  rfl

/-- One more block of `z`: the store at step `t` (rows `256 t` to `256 t + 255`) extends the agreement with `z` by one block. -/
theorem ZUpTo_step (c : Dev nD) (t : Fin cfg0.N) (ht : t.val < 8) (zz : Vec F S2048x256 .bf16) (hzz : ZUpTo m c t.val zz)
    (arg11 : Memref sig .tc .vmem S2048x256 .bf16) (harg11 : arg11.IsWhole)
    (inb : ∀ a, (k0_off1 (grid0.coords t)) a + S256x256.size a ≤ S2048x256.size a) :
    ZUpTo m c (t.val + 1) (rowsPut arg11 harg11 (k0_off1 (grid0.coords t)) inb zz (zBlk m c t)) := by
  intro y hy
  have hy0 := idx2_lt0 y
  unfold rowsPut
  by_cases hr : 256 * t.val ≤ (y 0).val
  · have hlt : (y 0).val - 256 * t.val < 256 := by omega
    rw [View.read_writes_cons_rows_of_mem (d := ![2048, 256]) arg11.view (harg11.unread zz) inb (zBlk m c t) [] y
      (ix2 ⟨(y 0).val - 256 * t.val, hlt⟩ (y 1)) (off1_eq t)
      (by show (y 0).val = 256 * t.val + ((y 0).val - 256 * t.val); omega) rfl]
    unfold zAll
    exact blk_congr (zBlk m c) t _ _ _ (y 1) (by show (y 0).val / 256 = t.val; omega)
      (by show (y 0).val % 256 = (y 0).val - 256 * t.val; omega)
  · rw [View.read_writes_cons_rows_of_not_mem (d := ![2048, 256]) (W := 256) arg11.view (harg11.unread zz) inb (zBlk m c t) [] y
      (off1_eq t) rfl (Or.inl (by omega))]
    rw [View.writes_nil, harg11.read_unread]
    exact hzz y (by omega)

end Cert.Kernel.Body

end
-- ==== Proof.KKept.lean ====
import proofs.«169483_g28836410425909_cont_9to1_1670_4_alg».proof.Proof.Gen.Kernel.Frame
import proofs.«169483_g28836410425909_cont_9to1_1670_4_alg».proof.Proof.Gen.Kernel.Skeleton
import proofs.«169483_g28836410425909_cont_9to1_1670_4_alg».proof.Proof.KData
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The embedding window is uncut: no axis of its block is clipped at any step. -/
theorem clip7_none : ∀ (i : cfg0.grid.Coords) a, (cfg0.win 7).clip i a = none := fun _ _ => rfl

/-- The induction behind `before7_late`, over the step as a natural number. -/
theorem before7_late_nat (c : Dev nD) :
    ∀ (n : ℕ) (hn : n < cfg0.N), 8 ≤ n → ∀ d, (dats m 0 c).before 7 ⟨n, hn⟩ d = heBlk m c p7 := by
  intro n
  induction n with
  | zero => intro _ h; omega
  | succ k ih =>
    intro hn h8 d
    have hN : cfg0.N = 24 := N24
    have hk : k < cfg0.N := by omega
    rw [(dats m 0 c).before_of_pos 7 ⟨k + 1, hn⟩ (Nat.succ_ne_zero k) ((cfg0.win 7).fetch_out rfl _) d]
    show (if (cfg0.win 7).flush ⟨k, hk⟩ = true then d else (dats m 0 c).left 7 ⟨k, hk⟩ d) = heBlk m c p7
    rw [flush7 ⟨k, hk⟩, decide_eq_false (by show ¬ (k < 7 ∨ k = 23); omega), if_neg Bool.false_ne_true]
    unfold Dat.left
    rw [idle7 ⟨k, hk⟩]
    show (match decide (8 ≤ k) with
      | true => (dats m 0 c).before 7 ⟨k, hk⟩ d
      | false => (dats m 0 c).kept 7 ⟨k, hk⟩ d) = heBlk m c p7
    by_cases h : 8 ≤ k
    · rw [decide_eq_true h]
      exact ih hk h d
    · rw [decide_eq_false h]
      have hk7 : k = 7 := by omega
      subst hk7
      show (dats m 0 c).kept 7 ⟨7, hk⟩ d = heBlk m c p7
      unfold Dat.kept
      rw [Pipeline.fill_of_clip_none 7 _ (clip7_none _) d ((dats m 0 c).after 7 ⟨7, hk⟩), Window.fill_cut, after7]
      rw [clamp7_of_lt _ (by show 7 < 8; omega)]

/-- From step 8 on the embedding window's buffer still holds the block step 7 left: no step in between stores into it or writes it back. -/
theorem before7_late (c : Dev nD) (t : Fin cfg0.N) (ht : 8 ≤ t.val) (d) : (dats m 0 c).before 7 t d = heBlk m c p7 :=
  before7_late_nat m c t.val t.isLt ht d

end Cert.Kernel.Body

end
-- ==== Proof.KFrame.lean ====
import proofs.«169483_g28836410425909_cont_9to1_1670_4_alg».proof.Proof.Gen.Kernel.Frame
import proofs.«169483_g28836410425909_cont_9to1_1670_4_alg».proof.Proof.Gen.Kernel.Skeleton
import proofs.«169483_g28836410425909_cont_9to1_1670_4_alg».proof.Proof.KZStep
import proofs.«169483_g28836410425909_cont_9to1_1670_4_alg».proof.Proof.KKept
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The body obligation -/

abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .f32 := win0_8.stage (cfg0.slots t 8)
abbrev hs8 (t : Fin cfg0.N) : (ms8 t).IsWhole := hstage0_8 ((cfg0.slots t 8).cast nbuf0_8)

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  have hN : t.val < 24 := lt_of_lt_of_eq t.isLt N24
  by_cases h1 : t.val < 8
  · -- the hyperedge phase: the embedding window is stored, the output window is idle and not written back
    rw [show (dats m 0 c).leavesExact 7 t = owns (c : Thread nD τ) (ms7 t) fullShare ((dats m 0 c).after 7 t) from by
      unfold Dat.leavesExact; rw [idle7 t, decide_eq_false (by omega)], after7, clamp7_of_lt t h1]
    rw [(dats m 0 c).leavesExact_idle 8 t (by rw [idle8, decide_eq_true h1]) (by rw [flush8, decide_eq_false (by omega)])]
    by_cases hz : t.val = 0
    · obtain rfl : t = p0 := Fin.ext hz
      rw [Phi_castSucc m c p0, Phi_zero m c _ _ rfl, PhiA_eq]
      iintro ⟨⟨⟨HS0, ⟨%zz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runA c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) scM0 (Memref.isWhole_whole _) scM1 (Memref.isWhole_whole _) ((first_iff p0).mpr rfl) ((cond2_iff p0).mpr h1) (fun h => absurd ((cond3_iff p0).mp h) (by omega)) (iblk m c 0 p0) (iblk m c 1 p0) (iblk m c 2 p0) (iblk m c 3 p0) (iblk m c 4 p0) (iblk m c 5 p0) zz Set.univ _)
      isplitl [H0]; · iexact H0
      isplitl [H1]; · iexact H1
      isplitl [H2]; · iexact H2
      isplitl [H3]; · iexact H3
      isplitl [H4]; · iexact H4
      isplitl [H5]; · iexact H5
      isplitl [H7]; · iexists _; iexact H7
      isplitl [HS0]; · iexact HS0
      isplitl [HS1]; · iexact HS1
      iintro ⟨H0, H1, H2, H3, H4, H5, H7, HS0, HS1⟩
      isplitl [HS0 HS1 Hg]
      · isplitl [HS0 HS1]
        · isplitl [HS0]
          · iexact HS0
          iexists _; isplitr; swap; · iexact HS1
          ipureintro
          exact ZUpTo_step m c p0 h1 zz (ZUpTo_zero m c zz) _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Phi_castSucc m c t, Phi_pos m c _ _ hz]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) ((cond2_iff t).mpr h1) (fun h => absurd ((cond3_iff t).mp h) (by omega)) (iblk m c 0 t) (iblk m c 4 t) (iblk m c 5 t) (hAll m c) zz Set.univ _)
      isplitl [H0]; · iexact H0
      isplitl [H4]; · iexact H4
      isplitl [H5]; · iexact H5
      isplitl [H7]; · iexists _; iexact H7
      isplitl [HS0]; · iexact HS0
      isplitl [HS1]; · iexact HS1
      iintro ⟨H0, H4, H5, H7, HS0, HS1⟩
      isplitl [HS0 HS1 Hg]
      · isplitl [HS0 HS1]
        · isplitl [HS0]
          · iexact HS0
          iexists _; isplitr; swap; · iexact HS1
          ipureintro
          exact ZUpTo_step m c t h1 zz hzz _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · -- the output phase: the output window is stored; the embedding window is idle
    have h8 : 8 ≤ t.val := by omega
    have hz : t.val ≠ 0 := by omega
    rw [show (dats m 0 c).leavesExact 8 t = owns (c : Thread nD τ) (ms8 t) fullShare ((dats m 0 c).after 8 t) from by
      unfold Dat.leavesExact; rw [idle8 t, decide_eq_false (by omega)], after8]
    rw [Phi_castSucc m c t, Phi_pos m c _ _ hz]
    by_cases h23 : t.val = 23
    · rw [show (dats m 0 c).leavesExact 7 t = owns (c : Thread nD τ) (ms7 t) fullShare ((dats m 0 c).after 7 t) from by
        unfold Dat.leavesExact; rw [idle7 t, decide_eq_true h8, flush7 t, decide_eq_true (Or.inr h23)], after7, clamp7_of_ge t h8]
      simp only [before7_late m c t h8]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := ZUpTo_full m c h8 hzz
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) (fun h => h1 ((cond2_iff t).mp h)) ((cond3_iff t).mpr h8) (iblk m c 6 t) (zAll m c) Set.univ _)
      isplitl [H6]; · iexact H6
      isplitl [H8]; · iexists _; iexact H8
      isplitl [HS1]; · iexact HS1
      iintro ⟨H6, H8, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [(dats m 0 c).leavesExact_idle 7 t (by rw [idle7, decide_eq_true h8]) (by rw [flush7, decide_eq_false (by omega)])]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
      obtain rfl := ZUpTo_full m c h8 hzz
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) (fun h => h1 ((cond2_iff t).mp h)) ((cond3_iff t).mpr h8) (iblk m c 6 t) (zAll m c) Set.univ _)
      isplitl [H6]; · iexact H6
      isplitl [H8]; · iexists _; iexact H8
      isplitl [HS1]; · iexact HS1
      iintro ⟨H6, H8, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before step 0. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last step the invariant gives it back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N24]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every array of the pipeline ends at what the proof data
    compute (an input unchanged, an output overwritten block by block by what the body left at each
    write-back), every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KIBody.lean ====
import proofs.«169483_g28836410425909_cont_9to1_1670_4_alg».proof.Proof.Gen.KernelIdeal.Frame
import proofs.«169483_g28836410425909_cont_9to1_1670_4_alg».proof.Proof.Gen.KernelIdeal.Skeleton
import Idealize.ShloMosaic.Lib.WritesUnit
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body, run once per shape of its three guards. A grid step is in exactly one of three
    phases: step 0 (project the nodes, then the first block of hyperedges), steps 1 to 7 (one more block
    of hyperedges each), steps 8 to 23 (one block of node outputs each). Each run names what every
    buffer the step writes holds afterwards, as a function of what the step read. -/

/-- The first guard: the grid coordinate is zero. -/
abbrev isFirst (i : grid0.Coords) : Prop := (Scalar.cmpi .ne (Scalar.extui (Scalar.cmpi .eq (BitVec.ofNat 32 (i 0).val) 0#32)) 0#32) = 1#1

theorem hz2 : (![0, 0] : Fin 2 → ℕ) = fun _ => 0 := by
  funext a; match a with | ⟨0, _⟩ => rfl | ⟨1, _⟩ => rfl

/-- One store through the whole-shape rectangle at zero offsets, read back, is its payload. -/
theorem read_store_whole {S : Shape} {e : EltTy} (v : View sig .tc .vmem S e) (f : v.ty.Contents (Elt F)) {off : Fin S.rank → ℕ}
    (hz : off = fun _ => 0) (inb : ∀ a, off a + S.size a ≤ S.size a) (w : S.Idx → Elt F e) :
    v.read (Elt F) (v.writes (Elt F) f [⟨Rect.unit off S.size inb, w⟩]) = w := by
  subst hz
  exact View.read_writes_whole v f w

/-- A [2048, 256] buffer holding `zz` after one store of a [256, 256] block at row offset `off 0`. -/
def rowsPut (arg11 : Memref sig .tc .vmem S2048x256 .bf16) (harg11 : arg11.IsWhole) (off : Fin 2 → ℕ)
    (inb : ∀ a, off a + S256x256.size a ≤ S2048x256.size a) (zz : Vec F S2048x256 .bf16) (blk : Vec F S256x256 .bf16) : Vec F S2048x256 .bf16 :=
  arg11.view.read (Elt F) (arg11.view.writes (Elt F) (harg11.unread zz) [⟨Rect.unit (s := S2048x256) off S256x256.size inb, blk⟩])

set_option maxHeartbeats 1000000 in
/-- Step 0: the node projection `h` fills the first scratch; the hyperedge block is computed from it and
    stored to the embedding window; its back-projection goes to rows of the second scratch. -/
theorem runA (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : isFirst i) (hc1 : k0_cond2 i = 1#1) (hc2 : ¬k0_cond3 i = 1#1)
    (x0 : Vec F S256x8192 .f32) (x1 : Vec F S8192x256 .f32) (x2 : Vec F S256x256 .f32) (x3 : Vec F S1x256 .f32) (x4 : Vec F S256x256 .f32) (x5 : Vec F S1x256 .f32)
    (zz : Vec F S2048x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg8 fullShare d) ∗ (∃ d, owns (c : Thread nD τ) arg10 fullShare d) ∗ owns (c : Thread nD τ) arg11 fullShare zz
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg8 fullShare (k0_pay2 x0 (k0_pay1 x1 x2 x3)) ∗ owns (c : Thread nD τ) arg10 fullShare (k0_pay1 x1 x2 x3)
            ∗ owns (c : Thread nD τ) arg11 fullShare (rowsPut arg11 harg11 (k0_off1 i) (k0_off1_inb i hc1) zz (k0_pay3 x0 (k0_pay1 x1 x2 x3) x4 x5))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (read_store_whole (S := S256x256) _ _ hz2 _ _).trans ?_
    sl_unfold_words
    simp only [View.readAt_eq_ld, harg1.read_unread, harg2.read_unread, harg3.read_unread, harg4.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  isplitl [HS0]
  · iexists _; isplitr; swap; · iexact HS0
    ipureintro
    refine (read_store_whole (S := S8192x256) _ _ hz2 _ _).trans ?_
    sl_unfold_words
    simp only [View.readAt_eq_ld, harg2.read_unread, harg3.read_unread, harg4.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  iexists _; isplitr; swap; · iexact HS1
  ipureintro
  sl_unfold_words
  simp only [View.readAt_eq_ld, harg1.read_unread, harg2.read_unread, harg3.read_unread, harg4.read_unread, harg5.read_unread, harg6.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  rfl

set_option maxHeartbeats 1000000 in
/-- Steps 1 to 7: one more block of hyperedges from the projection already in the first scratch. -/
theorem runB (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : ¬isFirst i) (hc1 : k0_cond2 i = 1#1) (hc2 : ¬k0_cond3 i = 1#1)
    (x0 : Vec F S256x8192 .f32) (x4 : Vec F S256x256 .f32) (x5 : Vec F S1x256 .f32)
    (hcur : Vec F S8192x256 .bf16) (zz : Vec F S2048x256 .bf16) (E : Set ℕ) (K : PUnit → sProp 𝕄) :
    iprop(owns (c : Thread nD τ) arg1 fullShare x0 ∗ owns (c : Thread nD τ) arg5 fullShare x4 ∗ owns (c : Thread nD τ) arg6 fullShare x5
        ∗ (∃ d, owns (c : Thread nD τ) arg8 fullShare d) ∗ owns (c : Thread nD τ) arg10 fullShare hcur ∗ owns (c : Thread nD τ) arg11 fullShare zz
        ∗ (iprop(owns (c : Thread nD τ) arg1 fullShare x0 ∗ owns (c : Thread nD τ) arg5 fullShare x4 ∗ owns (c : Thread nD τ) arg6 fullShare x5
            ∗ owns (c : Thread nD τ) arg8 fullShare (k0_pay2 x0 hcur) ∗ owns (c : Thread nD τ) arg10 fullShare hcur
            ∗ owns (c : Thread nD τ) arg11 fullShare (rowsPut arg11 harg11 (k0_off1 i) (k0_off1_inb i hc1) zz (k0_pay3 x0 hcur x4 x5))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f0, %hf0, H0⟩, ⟨%f4, %hf4, H4⟩, ⟨%f5, %hf5, H5⟩, ⟨%d7, %f7, -, H7⟩, ⟨%fs0, %hfs0, HS0⟩, ⟨%fs1, %hfs1, HS1⟩, Hk⟩
  obtain rfl := harg1.eq_unread hf0; obtain rfl := harg5.eq_unread hf4; obtain rfl := harg6.eq_unread hf5; obtain rfl := harg10.eq_unread hfs0; obtain rfl := harg11.eq_unread hfs1
  sl_exec (disch := first | exact hc0 | exact hc1 | exact hc2)
  sl_step
  iapply Hk
  isplitl [H0]
  · iexists _; isplitr; · ipureintro; exact harg1.read_unread _
    iexact H0
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (read_store_whole (S := S256x256) _ _ hz2 _ _).trans ?_
    sl_unfold_words
    simp only [View.readAt_eq_ld, harg1.read_unread, harg10.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  isplitl [HS0]
  · iexists _; isplitr; · ipureintro; exact harg10.read_unread _
    iexact HS0
  iexists _; isplitr; swap; · iexact HS1
  ipureintro
  sl_unfold_words
  simp only [View.readAt_eq_ld, harg1.read_unread, harg5.read_unread, harg6.read_unread, harg10.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  rfl

set_option maxHeartbeats 1000000 in
/-- Steps 8 to 23: one block of node outputs from the back-projection held in the second scratch. -/
theorem runC (c : Dev nD) (i : grid0.Coords) (arg1 : Memref sig .tc .vmem S256x8192 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x2048 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S8192x256 .bf16) (harg10 : arg10.IsWhole) (arg11 : Memref sig .tc .vmem S2048x256 .bf16) (harg11 : arg11.IsWhole)
    (hc0 : ¬isFirst i) (hc1 : ¬k0_cond2 i = 1#1) (hc2 : k0_cond3 i = 1#1)
    (x6 : Vec F S512x2048 .f32) (z : Vec F S2048x256 .bf16) (E : Set ℕ) (K : PUnit → sProp 𝕄) :
    iprop(owns (c : Thread nD τ) arg7 fullShare x6 ∗ (∃ d, owns (c : Thread nD τ) arg9 fullShare d) ∗ owns (c : Thread nD τ) arg11 fullShare z
        ∗ (iprop(owns (c : Thread nD τ) arg7 fullShare x6 ∗ owns (c : Thread nD τ) arg9 fullShare (k0_pay4 x6 z) ∗ owns (c : Thread nD τ) arg11 fullShare z) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f6, %hf6, H6⟩, ⟨%d8, %f8, -, H8⟩, ⟨%fs1, %hfs1, HS1⟩, Hk⟩
  obtain rfl := harg7.eq_unread hf6; obtain rfl := harg11.eq_unread hfs1
  sl_exec (disch := first | exact hc0 | exact hc1 | exact hc2)
  sl_step
  iapply Hk
  isplitl [H6]
  · iexists _; isplitr; · ipureintro; exact harg7.read_unread _
    iexact H6
  isplitl [H8]
  · iexists _; isplitr; swap; · iexact H8
    ipureintro
    refine (read_store_whole (S := S512x256) _ _ hz2 _ _).trans ?_
    sl_unfold_words
    simp only [View.readAt_eq_ld, harg7.read_unread, harg11.read_unread, View.ld_unit_zero (S := S256x8192) hz2, View.ld_unit_zero (S := S8192x256) hz2, View.ld_unit_zero (S := S256x256) hz2, View.ld_unit_zero (S := S1x256) hz2, View.ld_unit_zero (S := S512x2048) hz2, View.ld_unit_zero (S := S2048x256) hz2, View.readCov_unit_zero (S := S8192x256) _ hz2]
  iexists _; isplitr; · ipureintro; exact harg11.read_unread _
  iexact HS1

end Cert.KernelIdeal.Body

end
-- ==== Proof.KIData.lean ====
import proofs.«169483_g28836410425909_cont_9to1_1670_4_alg».proof.Proof.Gen.KernelIdeal.Frame
import proofs.«169483_g28836410425909_cont_9to1_1670_4_alg».proof.Proof.Gen.KernelIdeal.Skeleton
import proofs.«169483_g28836410425909_cont_9to1_1670_4_alg».proof.Proof.KIBody
import Idealize.ShloMosaic.Lib.ValueIdx
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The blocks a step reads, and what the steps compute from them

  The grid has 24 steps. Window 0 (rows of H, 256 at a time) moves with the step up to step 7 and then
  stays; window 6 (rows of G, 512 at a time) stays at block 0 up to step 8 and then moves; windows 1 to 5
  (x, W₁, b₁, W₂, b₂) are whole arrays at every step. -/

theorem N24 : cfg0.N = 24 := N_0
theorem lt_N {n : ℕ} (h : n < 24) : n < cfg0.N := by rw [N24]; exact h

/-- Steps 0 and 7, and a step clamped to at most 7 (the embedding window's block index). -/
abbrev p0 : Fin cfg0.N := ⟨0, lt_N (by omega)⟩
abbrev p7 : Fin cfg0.N := ⟨7, lt_N (by omega)⟩
def clamp7 (t : Fin cfg0.N) : Fin cfg0.N := ⟨min t.val 7, lt_N (by omega)⟩

theorem clamp7_of_lt (t : Fin cfg0.N) (h : t.val < 8) : clamp7 t = t := Fin.ext (by show min t.val 7 = t.val; omega)
theorem clamp7_of_ge (t : Fin cfg0.N) (h : 8 ≤ t.val) : clamp7 t = p7 := Fin.ext (by show min t.val 7 = 7; omega)

/-- Each input window's block at a step, at its literal type. -/
abbrev hhBlk (c : Dev nD) (t : Fin cfg0.N) : Vec F S256x8192 .f32 := iblk m c 0 t
abbrev xBlk (c : Dev nD) (t : Fin cfg0.N) : Vec F S8192x256 .f32 := iblk m c 1 t
abbrev w1Blk (c : Dev nD) (t : Fin cfg0.N) : Vec F S256x256 .f32 := iblk m c 2 t
abbrev b1Blk (c : Dev nD) (t : Fin cfg0.N) : Vec F S1x256 .f32 := iblk m c 3 t
abbrev w2Blk (c : Dev nD) (t : Fin cfg0.N) : Vec F S256x256 .f32 := iblk m c 4 t
abbrev b2Blk (c : Dev nD) (t : Fin cfg0.N) : Vec F S1x256 .f32 := iblk m c 5 t
abbrev hgBlk (c : Dev nD) (t : Fin cfg0.N) : Vec F S512x2048 .f32 := iblk m c 6 t

/-- The node projection `h`, computed at step 0 and kept in the first scratch. -/
def hAll (c : Dev nD) : Vec F S8192x256 .bf16 := k0_pay1 (xBlk m c p0) (w1Blk m c p0) (b1Blk m c p0)
/-- The block of hyperedge embeddings step `t` computes (rows 256 t …). -/
def heBlk (c : Dev nD) (t : Fin cfg0.N) : Vec F S256x256 .f32 := k0_pay2 (hhBlk m c t) (hAll m c)
/-- Its back-projection, the block of `z` step `t` stores into the second scratch. -/
def zBlk (c : Dev nD) (t : Fin cfg0.N) : Vec F S256x256 .bf16 := k0_pay3 (hhBlk m c t) (hAll m c) (w2Blk m c t) (b2Blk m c t)
/-- All of `z`: row `r` is row `r mod 256` of the block step `r / 256` stored. -/
def zAll (c : Dev nD) : Vec F S2048x256 .bf16 := fun y =>
  zBlk m c ⟨(y 0).val / 256, lt_N (by have := idx2_lt0 y; omega)⟩ (ix2 ⟨(y 0).val % 256, Nat.mod_lt _ (by omega)⟩ (y 1))
/-- The block of node outputs step `t` (8 ≤ t) computes. -/
def outBlk (c : Dev nD) (t : Fin cfg0.N) : Vec F S512x256 .f32 := k0_pay4 (hgBlk m c t) (zAll m c)

/-! ## The schedule, decided over the grid -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The embedding window is idle from step 8 on, the output window before step 8. -/
theorem idle7 : ∀ t : Fin cfg0.N, cfg0.idle 7 (grid0.coords t) = decide (8 ≤ t.val) :=
  (by decide +kernel : ∀ t : Fin grid0.N, cfg0.idle 7 (grid0.coords t) = decide (8 ≤ t.val))
theorem idle8 : ∀ t : Fin cfg0.N, cfg0.idle 8 (grid0.coords t) = decide (t.val < 8) :=
  (by decide +kernel : ∀ t : Fin grid0.N, cfg0.idle 8 (grid0.coords t) = decide (t.val < 8))
/-- The embedding window is written back after steps 0 to 6 and after the last step; the output window after every step from 8 on. -/
theorem flush7 : ∀ t : Fin cfg0.N, (cfg0.win 7).flush t = decide (t.val < 7 ∨ t.val = 23) :=
  (by decide +kernel : ∀ t : Fin grid0.N, win0_7.flush t = decide (t.val < 7 ∨ t.val = 23))
theorem flush8 : ∀ t : Fin cfg0.N, (cfg0.win 8).flush t = decide (8 ≤ t.val) :=
  (by decide +kernel : ∀ t : Fin grid0.N, win0_8.flush t = decide (8 ≤ t.val))
/-- The three guards, decided over the grid. -/
theorem first_iff : ∀ t : Fin cfg0.N, isFirst (grid0.coords t) ↔ t.val = 0 :=
  (by decide +kernel : ∀ t : Fin grid0.N, isFirst (grid0.coords t) ↔ t.val = 0)
theorem cond2_iff : ∀ t : Fin cfg0.N, k0_cond2 (grid0.coords t) = 1#1 ↔ t.val < 8 :=
  (by decide +kernel : ∀ t : Fin grid0.N, k0_cond2 (grid0.coords t) = 1#1 ↔ t.val < 8)
theorem cond3_iff : ∀ t : Fin cfg0.N, k0_cond3 (grid0.coords t) = 1#1 ↔ 8 ≤ t.val :=
  (by decide +kernel : ∀ t : Fin grid0.N, k0_cond3 (grid0.coords t) = 1#1 ↔ 8 ≤ t.val)
/-- The row offset of the store into the second scratch at step `t` is `256 t`. -/
theorem off1_eq : ∀ t : Fin cfg0.N, k0_off1 (grid0.coords t) = ![256 * t.val, 0] :=
  (by decide +kernel : ∀ t : Fin grid0.N, k0_off1 (grid0.coords t) = ![256 * t.val, 0])

/-! ## The invariant between steps

  Before step 0 the two scratch buffers hold anything. After step `n` the first holds the projection `h`
  and the second agrees with `z` on its first `256 (n + 1)` rows. -/

abbrev scM0 : Memref sig .tc .vmem S8192x256 .bf16 := Memref.whole cc0_scratch0
abbrev scM1 : Memref sig .tc .vmem S2048x256 .bf16 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- `d` agrees with `z` on the rows below `256 n`. -/
def ZUpTo (c : Dev nD) (n : ℕ) (d : Vec F S2048x256 .bf16) : Prop :=
  ∀ y : S2048x256.Idx, (y 0).val < 256 * n → d y = zAll m c y

theorem ZUpTo_zero (c : Dev nD) (d : Vec F S2048x256 .bf16) : ZUpTo m c 0 d := fun y h => absurd h (by omega)

/-- From 8 blocks on, all of `z`. -/
theorem ZUpTo_full (c : Dev nD) {n : ℕ} (hn : 8 ≤ n) {d : Vec F S2048x256 .bf16} (h : ZUpTo m c n d) : d = zAll m c :=
  funext fun y => h y (by have := idx2_lt0 y; omega)

def Phi (c : Dev nD) : (n : ℕ) → n ≤ cfg0.N → sProp 𝕄
  | 0, _ => Pipeline.ΦA spec0 c
  | n + 1, _ => iprop(iprop(owns (c : Thread nD τ) scM0 fullShare (hAll m c) ∗ (∃ d, ⌜ZUpTo m c (n + 1) d⌝ ∗ owns (c : Thread nD τ) scM1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scM0 fullShare (hAll m c) ∗ (∃ d, ⌜ZUpTo m c (n + 1) d⌝ ∗ owns (c : Thread nD τ) scM1 fullShare d)) ∗ (∃ r, prngReg c r)) := rfl

theorem Phi_pos (c : Dev nD) (n : ℕ) (h : n ≤ cfg0.N) (hz : n ≠ 0) :
    Phi m c n h = iprop(iprop(owns (c : Thread nD τ) scM0 fullShare (hAll m c) ∗ (∃ d, ⌜ZUpTo m c n d⌝ ∗ owns (c : Thread nD τ) scM1 fullShare d)) ∗ (∃ r, prngReg c r)) := by
  cases n with
  | zero => exact absurd rfl hz
  | succ n => rfl

/-! ## The proof data -/

/-- On core `c`: the arrays as the region finds them; after the body at step `t` each input's buffer at its
    block, the embedding window's at the block of step `min t 7` (it is not touched after step 7), the output
    window's at the block of step `t`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => heBlk m c (clamp7 t)
    | ⟨8, _⟩ => outBlk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = heBlk m c (clamp7 t) := by dsimp only [dats]
theorem after8 (c : Dev nD) (t : Fin cfg0.N) : (dats m 0 c).after 8 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

end Cert.KernelIdeal.Body

end
-- ==== Proof.KIZStep.lean ====
import proofs.«169483_g28836410425909_cont_9to1_1670_4_alg».proof.Proof.Gen.KernelIdeal.Frame
import proofs.«169483_g28836410425909_cont_9to1_1670_4_alg».proof.Proof.Gen.KernelIdeal.Skeleton
import proofs.«169483_g28836410425909_cont_9to1_1670_4_alg».proof.Proof.KIData
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A family of blocks read at equal steps and equal rows gives equal values. -/
theorem blk_congr (g : Fin cfg0.N → Vec F S256x256 .bf16) (t t' : Fin cfg0.N) (a a' : Fin 256) (b : Fin 256)
    (ht : t'.val = t.val) (ha : a'.val = a.val) : g t (ix2 a b) = g t' (ix2 a' b) := by
  obtain rfl : t' = t := Fin.ext ht
  obtain rfl : a' = a := Fin.ext ha
  rfl

/-- One more block of `z`: the store at step `t` (rows `256 t` to `256 t + 255`) extends the agreement with `z` by one block. -/
theorem ZUpTo_step (c : Dev nD) (t : Fin cfg0.N) (ht : t.val < 8) (zz : Vec F S2048x256 .bf16) (hzz : ZUpTo m c t.val zz)
    (arg11 : Memref sig .tc .vmem S2048x256 .bf16) (harg11 : arg11.IsWhole)
    (inb : ∀ a, (k0_off1 (grid0.coords t)) a + S256x256.size a ≤ S2048x256.size a) :
    ZUpTo m c (t.val + 1) (rowsPut arg11 harg11 (k0_off1 (grid0.coords t)) inb zz (zBlk m c t)) := by
  intro y hy
  have hy0 := idx2_lt0 y
  unfold rowsPut
  by_cases hr : 256 * t.val ≤ (y 0).val
  · have hlt : (y 0).val - 256 * t.val < 256 := by omega
    rw [View.read_writes_cons_rows_of_mem (d := ![2048, 256]) arg11.view (harg11.unread zz) inb (zBlk m c t) [] y
      (ix2 ⟨(y 0).val - 256 * t.val, hlt⟩ (y 1)) (off1_eq t)
      (by show (y 0).val = 256 * t.val + ((y 0).val - 256 * t.val); omega) rfl]
    unfold zAll
    exact blk_congr (zBlk m c) t _ _ _ (y 1) (by show (y 0).val / 256 = t.val; omega)
      (by show (y 0).val % 256 = (y 0).val - 256 * t.val; omega)
  · rw [View.read_writes_cons_rows_of_not_mem (d := ![2048, 256]) (W := 256) arg11.view (harg11.unread zz) inb (zBlk m c t) [] y
      (off1_eq t) rfl (Or.inl (by omega))]
    rw [View.writes_nil, harg11.read_unread]
    exact hzz y (by omega)

end Cert.KernelIdeal.Body

end
-- ==== Proof.KIKept.lean ====
import proofs.«169483_g28836410425909_cont_9to1_1670_4_alg».proof.Proof.Gen.KernelIdeal.Frame
import proofs.«169483_g28836410425909_cont_9to1_1670_4_alg».proof.Proof.Gen.KernelIdeal.Skeleton
import proofs.«169483_g28836410425909_cont_9to1_1670_4_alg».proof.Proof.KIData
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The embedding window is uncut: no axis of its block is clipped at any step. -/
theorem clip7_none : ∀ (i : cfg0.grid.Coords) a, (cfg0.win 7).clip i a = none := fun _ _ => rfl

/-- The induction behind `before7_late`, over the step as a natural number. -/
theorem before7_late_nat (c : Dev nD) :
    ∀ (n : ℕ) (hn : n < cfg0.N), 8 ≤ n → ∀ d, (dats m 0 c).before 7 ⟨n, hn⟩ d = heBlk m c p7 := by
  intro n
  induction n with
  | zero => intro _ h; omega
  | succ k ih =>
    intro hn h8 d
    have hN : cfg0.N = 24 := N24
    have hk : k < cfg0.N := by omega
    rw [(dats m 0 c).before_of_pos 7 ⟨k + 1, hn⟩ (Nat.succ_ne_zero k) ((cfg0.win 7).fetch_out rfl _) d]
    show (if (cfg0.win 7).flush ⟨k, hk⟩ = true then d else (dats m 0 c).left 7 ⟨k, hk⟩ d) = heBlk m c p7
    rw [flush7 ⟨k, hk⟩, decide_eq_false (by show ¬ (k < 7 ∨ k = 23); omega), if_neg Bool.false_ne_true]
    unfold Dat.left
    rw [idle7 ⟨k, hk⟩]
    show (match decide (8 ≤ k) with
      | true => (dats m 0 c).before 7 ⟨k, hk⟩ d
      | false => (dats m 0 c).kept 7 ⟨k, hk⟩ d) = heBlk m c p7
    by_cases h : 8 ≤ k
    · rw [decide_eq_true h]
      exact ih hk h d
    · rw [decide_eq_false h]
      have hk7 : k = 7 := by omega
      subst hk7
      show (dats m 0 c).kept 7 ⟨7, hk⟩ d = heBlk m c p7
      unfold Dat.kept
      rw [Pipeline.fill_of_clip_none 7 _ (clip7_none _) d ((dats m 0 c).after 7 ⟨7, hk⟩), Window.fill_cut, after7]
      rw [clamp7_of_lt _ (by show 7 < 8; omega)]

/-- From step 8 on the embedding window's buffer still holds the block step 7 left: no step in between stores into it or writes it back. -/
theorem before7_late (c : Dev nD) (t : Fin cfg0.N) (ht : 8 ≤ t.val) (d) : (dats m 0 c).before 7 t d = heBlk m c p7 :=
  before7_late_nat m c t.val t.isLt ht d

end Cert.KernelIdeal.Body

end
-- ==== Proof.KIFrame.lean ====
import proofs.«169483_g28836410425909_cont_9to1_1670_4_alg».proof.Proof.Gen.KernelIdeal.Frame
import proofs.«169483_g28836410425909_cont_9to1_1670_4_alg».proof.Proof.Gen.KernelIdeal.Skeleton
import proofs.«169483_g28836410425909_cont_9to1_1670_4_alg».proof.Proof.KIZStep
import proofs.«169483_g28836410425909_cont_9to1_1670_4_alg».proof.Proof.KIKept
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The body obligation -/

abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .f32 := win0_8.stage (cfg0.slots t 8)
abbrev hs8 (t : Fin cfg0.N) : (ms8 t).IsWhole := hstage0_8 ((cfg0.slots t 8).cast nbuf0_8)

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  have hN : t.val < 24 := lt_of_lt_of_eq t.isLt N24
  by_cases h1 : t.val < 8
  · -- the hyperedge phase: the embedding window is stored, the output window is idle and not written back
    rw [show (dats m 0 c).leavesExact 7 t = owns (c : Thread nD τ) (ms7 t) fullShare ((dats m 0 c).after 7 t) from by
      unfold Dat.leavesExact; rw [idle7 t, decide_eq_false (by omega)], after7, clamp7_of_lt t h1]
    rw [(dats m 0 c).leavesExact_idle 8 t (by rw [idle8, decide_eq_true h1]) (by rw [flush8, decide_eq_false (by omega)])]
    by_cases hz : t.val = 0
    · obtain rfl : t = p0 := Fin.ext hz
      rw [Phi_castSucc m c p0, Phi_zero m c _ _ rfl, PhiA_eq]
      iintro ⟨⟨⟨HS0, ⟨%zz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runA c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) scM0 (Memref.isWhole_whole _) scM1 (Memref.isWhole_whole _) ((first_iff p0).mpr rfl) ((cond2_iff p0).mpr h1) (fun h => absurd ((cond3_iff p0).mp h) (by omega)) (iblk m c 0 p0) (iblk m c 1 p0) (iblk m c 2 p0) (iblk m c 3 p0) (iblk m c 4 p0) (iblk m c 5 p0) zz Set.univ _)
      isplitl [H0]; · iexact H0
      isplitl [H1]; · iexact H1
      isplitl [H2]; · iexact H2
      isplitl [H3]; · iexact H3
      isplitl [H4]; · iexact H4
      isplitl [H5]; · iexact H5
      isplitl [H7]; · iexists _; iexact H7
      isplitl [HS0]; · iexact HS0
      isplitl [HS1]; · iexact HS1
      iintro ⟨H0, H1, H2, H3, H4, H5, H7, HS0, HS1⟩
      isplitl [HS0 HS1 Hg]
      · isplitl [HS0 HS1]
        · isplitl [HS0]
          · iexact HS0
          iexists _; isplitr; swap; · iexact HS1
          ipureintro
          exact ZUpTo_step m c p0 h1 zz (ZUpTo_zero m c zz) _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Phi_castSucc m c t, Phi_pos m c _ _ hz]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) ((cond2_iff t).mpr h1) (fun h => absurd ((cond3_iff t).mp h) (by omega)) (iblk m c 0 t) (iblk m c 4 t) (iblk m c 5 t) (hAll m c) zz Set.univ _)
      isplitl [H0]; · iexact H0
      isplitl [H4]; · iexact H4
      isplitl [H5]; · iexact H5
      isplitl [H7]; · iexists _; iexact H7
      isplitl [HS0]; · iexact HS0
      isplitl [HS1]; · iexact HS1
      iintro ⟨H0, H4, H5, H7, HS0, HS1⟩
      isplitl [HS0 HS1 Hg]
      · isplitl [HS0 HS1]
        · isplitl [HS0]
          · iexact HS0
          iexists _; isplitr; swap; · iexact HS1
          ipureintro
          exact ZUpTo_step m c t h1 zz hzz _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · -- the output phase: the output window is stored; the embedding window is idle
    have h8 : 8 ≤ t.val := by omega
    have hz : t.val ≠ 0 := by omega
    rw [show (dats m 0 c).leavesExact 8 t = owns (c : Thread nD τ) (ms8 t) fullShare ((dats m 0 c).after 8 t) from by
      unfold Dat.leavesExact; rw [idle8 t, decide_eq_false (by omega)], after8]
    rw [Phi_castSucc m c t, Phi_pos m c _ _ hz]
    by_cases h23 : t.val = 23
    · rw [show (dats m 0 c).leavesExact 7 t = owns (c : Thread nD τ) (ms7 t) fullShare ((dats m 0 c).after 7 t) from by
        unfold Dat.leavesExact; rw [idle7 t, decide_eq_true h8, flush7 t, decide_eq_true (Or.inr h23)], after7, clamp7_of_ge t h8]
      simp only [before7_late m c t h8]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := ZUpTo_full m c h8 hzz
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) (fun h => h1 ((cond2_iff t).mp h)) ((cond3_iff t).mpr h8) (iblk m c 6 t) (zAll m c) Set.univ _)
      isplitl [H6]; · iexact H6
      isplitl [H8]; · iexists _; iexact H8
      isplitl [HS1]; · iexact HS1
      iintro ⟨H6, H8, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [(dats m 0 c).leavesExact_idle 7 t (by rw [idle7, decide_eq_true h8]) (by rw [flush7, decide_eq_false (by omega)])]
      iintro ⟨⟨⟨HS0, ⟨%zz, %hzz, HS1⟩⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
      obtain rfl := ZUpTo_full m c h8 hzz
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => hz ((first_iff t).mp h)) (fun h => h1 ((cond2_iff t).mp h)) ((cond3_iff t).mpr h8) (iblk m c 6 t) (zAll m c) Set.univ _)
      isplitl [H6]; · iexact H6
      isplitl [H8]; · iexists _; iexact H8
      isplitl [HS1]; · iexact HS1
      iintro ⟨H6, H8, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before step 0. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last step the invariant gives it back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N24]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every array of the pipeline ends at what the proof data
    compute (an input unchanged, an output overwritten block by block by what the body left at each
    write-back), every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The hypergraph convolution as mathematics, on the extended reals: four matrix products with two
  bias rows and two rectifiers,

      h   = x · W₁ + b₁                (nodes × features)
      e   = max (H · h) 0              (hyperedges × features)
      z   = e · W₂ + b₂                (hyperedges × features)
      out = max (G · z) 0              (nodes × features)

  each entry a finite sum over the contracted axis. Both programs of this certificate compute
  `(out, e)`; this file only names the functions, entry by entry, over literal shapes.
-/
import Idealize.ShloMosaic.PureOps.Ideal
import Idealize.ShloMosaic.Lib.ValueIdx

noncomputable section

namespace HyperConv

open Idealize.ShloMosaic Idealize.ShloMosaic.ValueIdx

abbrev SNodesFeat : Shape := ⟨2, ![8192, 256]⟩
abbrev SEdgesNodes : Shape := ⟨2, ![2048, 8192]⟩
abbrev SNodesEdges : Shape := ⟨2, ![8192, 2048]⟩
abbrev SFeatFeat : Shape := ⟨2, ![256, 256]⟩
abbrev SEdgesFeat : Shape := ⟨2, ![2048, 256]⟩
abbrev SFeat : Shape := ⟨1, ![256]⟩

/-- `h = x · W₁ + b₁`: entry (n, f) is `∑ₖ x[n,k] · W₁[k,f] + b₁[f]`. -/
def proj (x : FVec Ideal SNodesFeat .f32) (w1 : FVec Ideal SFeatFeat .f32) (b1 : FVec Ideal SFeat .f32) :
    FVec Ideal SNodesFeat .f32 :=
  fun j => (∑ k : Fin 256, x (ix2 (j 0) k) * w1 (ix2 k (j 1))) + b1 (ix1 (j 1))

/-- `e = max (H · h) 0`: entry (r, f) is `max (∑ₙ H[r,n] · h[n,f]) 0`. -/
def gather (hh : FVec Ideal SEdgesNodes .f32) (h : FVec Ideal SNodesFeat .f32) : FVec Ideal SEdgesFeat .f32 :=
  fun j => max (∑ n : Fin 8192, hh (ix2 (j 0) n) * h (ix2 n (j 1))) 0

/-- `z = e · W₂ + b₂`: entry (r, g) is `∑_f e[r,f] · W₂[f,g] + b₂[g]`. -/
def back (e : FVec Ideal SEdgesFeat .f32) (w2 : FVec Ideal SFeatFeat .f32) (b2 : FVec Ideal SFeat .f32) :
    FVec Ideal SEdgesFeat .f32 :=
  fun j => (∑ f : Fin 256, e (ix2 (j 0) f) * w2 (ix2 f (j 1))) + b2 (ix1 (j 1))

/-- `out = max (G · z) 0`: entry (n, g) is `max (∑ᵣ G[n,r] · z[r,g]) 0`. -/
def scatter (hg : FVec Ideal SNodesEdges .f32) (z : FVec Ideal SEdgesFeat .f32) : FVec Ideal SNodesFeat .f32 :=
  fun j => max (∑ r : Fin 2048, hg (ix2 (j 0) r) * z (ix2 r (j 1))) 0

/-- The hyperedge embeddings, the second result. -/
def edgeEmb (x : FVec Ideal SNodesFeat .f32) (hh : FVec Ideal SEdgesNodes .f32) (w1 : FVec Ideal SFeatFeat .f32)
    (b1 : FVec Ideal SFeat .f32) : FVec Ideal SEdgesFeat .f32 :=
  gather hh (proj x w1 b1)

/-- The node output, the first result. -/
def nodeOut (x : FVec Ideal SNodesFeat .f32) (hh : FVec Ideal SEdgesNodes .f32) (hg : FVec Ideal SNodesEdges .f32)
    (w1 : FVec Ideal SFeatFeat .f32) (b1 : FVec Ideal SFeat .f32) (w2 : FVec Ideal SFeatFeat .f32) (b2 : FVec Ideal SFeat .f32) :
    FVec Ideal SNodesFeat .f32 :=
  scatter hg (back (edgeEmb x hh w1 b1) w2 b2)

end HyperConv

end
-- ==== Proof.PayValue.lean ====
/-
  The four values the kernel body stores, entry by entry. Over the extended reals a narrowing of the format is the
  identity, a matrix product into the zero accumulator is the plain sum over the contracted axis, the bias row
  (a [1,256] block cast to its own shape and repeated along the rows) is read at its one row, and the rectifier is
  the maximum with zero. So each stored block, read at (row, column), is

      first   ∑ₖ x[n,k] · w[k,f] + b[0,f]
      second  max (∑ₙ H[p,n] · h[n,f]) 0
      third   ∑_f second[p,f] · w[f,g] + b[0,g]
      fourth  max (∑ᵣ G[q,r] · z[r,g]) 0.
-/
import proofs.«169483_g28836410425909_cont_9to1_1670_4_alg».proof.Proof.Gen.KernelIdeal.Skeleton
import proofs.«169483_g28836410425909_cont_9to1_1670_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ### The product of a [8192,256] block and a [256,256] block

The operand indices of the contraction at output index `i` and contraction index `q`, axis by axis: the left
operand is read at (row of `i`, `q`), the right one at (`q`, column of `i`). -/

theorem lhs_dot_S8192x256_S256x256_S8192x256_1_0_0_1_n_n_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_dot_S8192x256_S256x256_S8192x256_1_0_0_1_n_n_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_dot_S8192x256_S256x256_S8192x256_1_0_0_1_n_n_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_dot_S8192x256_S256x256_S8192x256_1_0_0_1_n_n_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- Into the zero accumulator the product's entry (r, c) is the plain sum `∑ₖ a[r,k] · b[k,c]`, whatever the
    operands' formats. -/
theorem matmul_d1_apply {φ₁ φ₂ : FTy} (a : FVec Ideal S8192x256 φ₁) (b : FVec Ideal S256x256 φ₂) (r : Fin 8192) (c : Fin 256) :
    FloatOps.matmul dot_S8192x256_S256x256_S8192x256_1_0_0_1_n_n none a b (constant (F := Ideal) S8192x256 .f32 0x00000000#32) (ix2 r c)
      = ∑ k : Fin 256, a (ix2 r k) * b (ix2 k c) := by
  rw [Ideal.matmul_constant_zero_apply, ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 r c) ((contrEquiv1 dot_S8192x256_S256x256_S8192x256_1_0_0_1_n_n 256 rfl rfl).symm k) = ix2 r k := funext fun ax => Fin.ext (by
    match ax with
    | ⟨0, _⟩ => exact lhs_dot_S8192x256_S256x256_S8192x256_1_0_0_1_n_n_0 _ _
    | ⟨1, _⟩ => exact (lhs_dot_S8192x256_S256x256_S8192x256_1_0_0_1_n_n_1 _ _).trans hk)
  have er : dot_S8192x256_S256x256_S8192x256_1_0_0_1_n_n.rhsIdx (ix2 r c) ((contrEquiv1 dot_S8192x256_S256x256_S8192x256_1_0_0_1_n_n 256 rfl rfl).symm k) = ix2 k c := funext fun ax => Fin.ext (by
    match ax with
    | ⟨0, _⟩ => exact (rhs_dot_S8192x256_S256x256_S8192x256_1_0_0_1_n_n_0 _ _).trans hk
    | ⟨1, _⟩ => exact rhs_dot_S8192x256_S256x256_S8192x256_1_0_0_1_n_n_1 _ _)
  rw [el, er]

/-! ### The product of a [256,8192] block and a [8192,256] block

The operand indices of the contraction at output index `i` and contraction index `q`, axis by axis: the left
operand is read at (row of `i`, `q`), the right one at (`q`, column of `i`). -/

theorem lhs_dot_S256x8192_S8192x256_S256x256_1_0_0_1_n_n_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_dot_S256x8192_S8192x256_S256x256_1_0_0_1_n_n_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_dot_S256x8192_S8192x256_S256x256_1_0_0_1_n_n_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_dot_S256x8192_S8192x256_S256x256_1_0_0_1_n_n_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- Into the zero accumulator the product's entry (r, c) is the plain sum `∑ₖ a[r,k] · b[k,c]`, whatever the
    operands' formats. -/
theorem matmul_d2_apply {φ₁ φ₂ : FTy} (a : FVec Ideal S256x8192 φ₁) (b : FVec Ideal S8192x256 φ₂) (r : Fin 256) (c : Fin 256) :
    FloatOps.matmul dot_S256x8192_S8192x256_S256x256_1_0_0_1_n_n none a b (constant (F := Ideal) S256x256 .f32 0x00000000#32) (ix2 r c)
      = ∑ k : Fin 8192, a (ix2 r k) * b (ix2 k c) := by
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 r c) ((contrEquiv1 dot_S256x8192_S8192x256_S256x256_1_0_0_1_n_n 8192 rfl rfl).symm k) = ix2 r k := funext fun ax => Fin.ext (by
    match ax with
    | ⟨0, _⟩ => exact lhs_dot_S256x8192_S8192x256_S256x256_1_0_0_1_n_n_0 _ _
    | ⟨1, _⟩ => exact (lhs_dot_S256x8192_S8192x256_S256x256_1_0_0_1_n_n_1 _ _).trans hk)
  have er : dot_S256x8192_S8192x256_S256x256_1_0_0_1_n_n.rhsIdx (ix2 r c) ((contrEquiv1 dot_S256x8192_S8192x256_S256x256_1_0_0_1_n_n 8192 rfl rfl).symm k) = ix2 k c := funext fun ax => Fin.ext (by
    match ax with
    | ⟨0, _⟩ => exact (rhs_dot_S256x8192_S8192x256_S256x256_1_0_0_1_n_n_0 _ _).trans hk
    | ⟨1, _⟩ => exact rhs_dot_S256x8192_S8192x256_S256x256_1_0_0_1_n_n_1 _ _)
  rw [el, er]

/-! ### The product of a [256,256] block and a [256,256] block

The operand indices of the contraction at output index `i` and contraction index `q`, axis by axis: the left
operand is read at (row of `i`, `q`), the right one at (`q`, column of `i`). -/

theorem lhs_dot_S256x256_S256x256_S256x256_1_0_0_1_n_n_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_dot_S256x256_S256x256_S256x256_1_0_0_1_n_n_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_dot_S256x256_S256x256_S256x256_1_0_0_1_n_n_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_dot_S256x256_S256x256_S256x256_1_0_0_1_n_n_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Into the zero accumulator the product's entry (r, c) is the plain sum `∑ₖ a[r,k] · b[k,c]`, whatever the
    operands' formats. -/
theorem matmul_d3_apply {φ₁ φ₂ : FTy} (a : FVec Ideal S256x256 φ₁) (b : FVec Ideal S256x256 φ₂) (r : Fin 256) (c : Fin 256) :
    FloatOps.matmul dot_S256x256_S256x256_S256x256_1_0_0_1_n_n none a b (constant (F := Ideal) S256x256 .f32 0x00000000#32) (ix2 r c)
      = ∑ k : Fin 256, a (ix2 r k) * b (ix2 k c) := by
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r c) ((contrEquiv1 dot_S256x256_S256x256_S256x256_1_0_0_1_n_n 256 rfl rfl).symm k) = ix2 r k := funext fun ax => Fin.ext (by
    match ax with
    | ⟨0, _⟩ => exact lhs_dot_S256x256_S256x256_S256x256_1_0_0_1_n_n_0 _ _
    | ⟨1, _⟩ => exact (lhs_dot_S256x256_S256x256_S256x256_1_0_0_1_n_n_1 _ _).trans hk)
  have er : dot_S256x256_S256x256_S256x256_1_0_0_1_n_n.rhsIdx (ix2 r c) ((contrEquiv1 dot_S256x256_S256x256_S256x256_1_0_0_1_n_n 256 rfl rfl).symm k) = ix2 k c := funext fun ax => Fin.ext (by
    match ax with
    | ⟨0, _⟩ => exact (rhs_dot_S256x256_S256x256_S256x256_1_0_0_1_n_n_0 _ _).trans hk
    | ⟨1, _⟩ => exact rhs_dot_S256x256_S256x256_S256x256_1_0_0_1_n_n_1 _ _)
  rw [el, er]

/-! ### The product of a [512,2048] block and a [2048,256] block

The operand indices of the contraction at output index `i` and contraction index `q`, axis by axis: the left
operand is read at (row of `i`, `q`), the right one at (`q`, column of `i`). -/

theorem lhs_dot_S512x2048_S2048x256_S512x256_1_0_0_1_n_n_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_dot_S512x2048_S2048x256_S512x256_1_0_0_1_n_n_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_dot_S512x2048_S2048x256_S512x256_1_0_0_1_n_n_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_dot_S512x2048_S2048x256_S512x256_1_0_0_1_n_n_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- Into the zero accumulator the product's entry (r, c) is the plain sum `∑ₖ a[r,k] · b[k,c]`, whatever the
    operands' formats. -/
theorem matmul_d4_apply {φ₁ φ₂ : FTy} (a : FVec Ideal S512x2048 φ₁) (b : FVec Ideal S2048x256 φ₂) (r : Fin 512) (c : Fin 256) :
    FloatOps.matmul dot_S512x2048_S2048x256_S512x256_1_0_0_1_n_n none a b (constant (F := Ideal) S512x256 .f32 0x00000000#32) (ix2 r c)
      = ∑ k : Fin 2048, a (ix2 r k) * b (ix2 k c) := by
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r c) ((contrEquiv1 dot_S512x2048_S2048x256_S512x256_1_0_0_1_n_n 2048 rfl rfl).symm k) = ix2 r k := funext fun ax => Fin.ext (by
    match ax with
    | ⟨0, _⟩ => exact lhs_dot_S512x2048_S2048x256_S512x256_1_0_0_1_n_n_0 _ _
    | ⟨1, _⟩ => exact (lhs_dot_S512x2048_S2048x256_S512x256_1_0_0_1_n_n_1 _ _).trans hk)
  have er : dot_S512x2048_S2048x256_S512x256_1_0_0_1_n_n.rhsIdx (ix2 r c) ((contrEquiv1 dot_S512x2048_S2048x256_S512x256_1_0_0_1_n_n 2048 rfl rfl).symm k) = ix2 k c := funext fun ax => Fin.ext (by
    match ax with
    | ⟨0, _⟩ => exact (rhs_dot_S512x2048_S2048x256_S512x256_1_0_0_1_n_n_0 _ _).trans hk
    | ⟨1, _⟩ => exact rhs_dot_S512x2048_S2048x256_S512x256_1_0_0_1_n_n_1 _ _)
  rw [el, er]

/-! ### The stored values at an entry -/

/-- The first stored block: `x · w + b`, the bias row read at its one row. -/
theorem pay1_apply (x : Vec Ideal S8192x256 .f32) (w : Vec Ideal S256x256 .f32) (b : Vec Ideal S1x256 .f32) (n : Fin 8192) (f : Fin 256) :
    k0_pay1 (F := Ideal) x w b (ix2 n f) = (∑ k : Fin 256, x (ix2 n k) * w (ix2 k f)) + b (ix2 0 f) := by
  unfold k0_pay1
  simp only [shapeCast_self, truncf_apply, addf_apply, matmul]
  rw [matmul_d1_apply, broadcastTo_1b_ab_apply]
  rfl

/-- The second stored block: the rectified product `max (H · h) 0`. -/
theorem pay2_apply (hh : Vec Ideal S256x8192 .f32) (h : Vec Ideal S8192x256 .bf16) (p : Fin 256) (f : Fin 256) :
    k0_pay2 (F := Ideal) hh h (ix2 p f) = max (∑ n : Fin 8192, hh (ix2 p n) * h (ix2 n f)) 0 := by
  unfold k0_pay2
  simp only [maximumf_apply, broadcast_apply, matmul]
  rw [matmul_d2_apply]
  exact congrArg (max _) Ideal.ofBits_zero_f32

/-- The third stored block: the second one times `w`, plus the bias row. -/
theorem pay3_apply (hh : Vec Ideal S256x8192 .f32) (h : Vec Ideal S8192x256 .bf16) (w : Vec Ideal S256x256 .f32) (b : Vec Ideal S1x256 .f32) (p : Fin 256) (g : Fin 256) :
    k0_pay3 (F := Ideal) hh h w b (ix2 p g) = (∑ f : Fin 256, k0_pay2 (F := Ideal) hh h (ix2 p f) * w (ix2 f g)) + b (ix2 0 g) := by
  unfold k0_pay3
  generalize k0_pay2 (F := Ideal) hh h = e
  simp only [shapeCast_self, truncf_apply, addf_apply, matmul]
  rw [matmul_d3_apply, broadcastTo_1b_ab_apply]
  rfl

/-- The fourth stored block: the rectified product `max (G · z) 0`. -/
theorem pay4_apply (hg : Vec Ideal S512x2048 .f32) (z : Vec Ideal S2048x256 .bf16) (q : Fin 512) (g : Fin 256) :
    k0_pay4 (F := Ideal) hg z (ix2 q g) = max (∑ r : Fin 2048, hg (ix2 q r) * z (ix2 r g)) 0 := by
  unfold k0_pay4
  simp only [maximumf_apply, broadcast_apply, matmul]
  rw [matmul_d4_apply]
  exact congrArg (max _) Ideal.ofBits_zero_f32

end Cert.KernelIdeal.PayValue

end
-- ==== Proof.PayBlock.lean ====
/-
  The four stored blocks as rows of the convolution's four functions. The first block is the whole projection
  `x · W₁ + b₁`. The second and third are the rows of `max (H · h) 0` and of `e · W₂ + b₂` that the block of `H` the
  step reads selects, and the fourth the rows of `max (G · z) 0` selected by the block of `G`: a block whose row `p`
  is row `ρ p` of the whole matrix gives row `ρ p` of the whole result. The kernel's bias is a [1,256] row, the
  convolution's a vector of 256 entries; they are joined by the hypothesis that the row reads the vector.
-/
import proofs.«169483_g28836410425909_cont_9to1_1670_4_alg».proof.Proof.PayValue

noncomputable section

namespace Cert.KernelIdeal.PayValue

open Cert.KernelIdeal Cert.KernelIdeal.Gen Idealize.ShloMosaic Idealize.ShloMosaic.ValueIdx

/-- The first stored block is the projection `x · W₁ + b₁`, all of it. -/
theorem pay1_eq_proj (x : Vec Ideal S8192x256 .f32) (w : Vec Ideal S256x256 .f32) (b : Vec Ideal S1x256 .f32)
    (b1 : FVec Ideal HyperConv.SFeat .f32) (hb : ∀ f : Fin 256, b (ix2 0 f) = b1 (ix1 f)) :
    k0_pay1 (F := Ideal) x w b = HyperConv.proj x w b1 := by
  funext j
  obtain ⟨n, f, rfl⟩ : ∃ n f, j = ix2 n f := ⟨j 0, j 1, eq_ix2 j⟩
  rw [pay1_apply, hb]
  rfl

/-- The second stored block holds the rows `ρ p` of `max (H · h) 0`, when the block of `H` holds those rows of `H`. -/
theorem pay2_eq_gather (hh : Vec Ideal S256x8192 .f32) (h : Vec Ideal S8192x256 .bf16)
    (HH : FVec Ideal HyperConv.SEdgesNodes .f32) (ρ : Fin 256 → Fin 2048)
    (hrow : ∀ (p : Fin 256) (n : Fin 8192), hh (ix2 p n) = HH (ix2 (ρ p) n)) (p : Fin 256) (f : Fin 256) :
    k0_pay2 (F := Ideal) hh h (ix2 p f) = HyperConv.gather HH h (ix2 (ρ p) f) := by
  rw [pay2_apply]
  simp only [hrow]
  rfl

/-- The third stored block holds the rows `ρ p` of `e · W₂ + b₂`, `e = max (H · h) 0`. -/
theorem pay3_eq_back (hh : Vec Ideal S256x8192 .f32) (h : Vec Ideal S8192x256 .bf16) (w : Vec Ideal S256x256 .f32)
    (b : Vec Ideal S1x256 .f32) (HH : FVec Ideal HyperConv.SEdgesNodes .f32) (b2 : FVec Ideal HyperConv.SFeat .f32)
    (ρ : Fin 256 → Fin 2048) (hrow : ∀ (p : Fin 256) (n : Fin 8192), hh (ix2 p n) = HH (ix2 (ρ p) n))
    (hb : ∀ g : Fin 256, b (ix2 0 g) = b2 (ix1 g)) (p : Fin 256) (g : Fin 256) :
    k0_pay3 (F := Ideal) hh h w b (ix2 p g) = HyperConv.back (HyperConv.gather HH h) w b2 (ix2 (ρ p) g) := by
  rw [pay3_apply, hb]
  simp only [pay2_eq_gather hh h HH ρ hrow]
  rfl

/-- The fourth stored block holds the rows `ρ q` of `max (G · z) 0`, when the block of `G` holds those rows of `G`. -/
theorem pay4_eq_scatter (hg : Vec Ideal S512x2048 .f32) (z : Vec Ideal S2048x256 .bf16)
    (G : FVec Ideal HyperConv.SNodesEdges .f32) (ρ : Fin 512 → Fin 8192)
    (hrow : ∀ (q : Fin 512) (r : Fin 2048), hg (ix2 q r) = G (ix2 (ρ q) r)) (q : Fin 512) (g : Fin 256) :
    k0_pay4 (F := Ideal) hg z (ix2 q g) = HyperConv.scatter G z (ix2 (ρ q) g) := by
  rw [pay4_apply]
  simp only [hrow]
  rfl

end Cert.KernelIdeal.PayValue

end
-- ==== Proof.KIValue.lean ====
/-
  The two result arrays of the kernel as the hypergraph convolution of its arguments, over the extended reals.

  The kernel walks 24 steps. Steps 0 to 7 each read 256 rows of `H` and produce 256 rows of the hyperedge embeddings
  `e = max (H · h) 0`, `h = x · W₁ + b₁`, and of `z = e · W₂ + b₂`; steps 8 to 23 each read 512 rows of `G` and produce
  512 rows of the node output `max (G · z) 0`. Here: each block an input window holds is the rows of its argument the
  block index selects (the two bias rows are the bias vectors recast to one row); hence the projection kept in the first
  scratch is `h`, a step's embedding block is rows `256 · min t 7 …` of `e`, the second scratch once full is `z`, and
  a step's output block is rows `512 · (t - 8) …` of the node output; each block written back is therefore the block of
  one whole-array function, the blocks written back cover each result array, and the arrays end holding `e` and the
  node output.
-/
import proofs.«169483_g28836410425909_cont_9to1_1670_4_alg».proof.Proof.KIData
import proofs.«169483_g28836410425909_cont_9to1_1670_4_alg».proof.Proof.PayBlock
import proofs.«169483_g28836410425909_cont_9to1_1670_4_alg».proof.Proof.Spec
import Idealize.ShloMosaic.Lib.Pipeline.Value
import Idealize.ShloMosaic.Lib.ValueIdx
import Idealize.ShloMosaic.Lib.ValueLayout
set_option maxRecDepth 16384

noncomputable section

namespace Cert.KernelIdeal.BodyValue

open Cert.KernelIdeal Cert.KernelIdeal.Gen Cert.KernelIdeal.Body
open Idealize.ShloMosaic Idealize.ShloMosaic.TcCoe Idealize.ShloMosaic.Tactic
open Idealize.SL.Sem
open Idealize.ShloMosaic.Pipeline (Dat Cfg Window)
open Idealize.ShloMosaic.ValueIdx

variable (m : (ℓ : Loc nD τ sig) → Buf (Elt Ideal) ℓ)

/-! ## The blocks of the inputs as rows of the arguments

  The block index maps, decided once over the 24 steps: the block of `H` follows the step up to 7, the block of `G`
  starts moving at step 8, the other five inputs are whole arrays; the two outputs move as `H` and as `G` do. -/

theorem idx_facts : ∀ t : Fin cfg0.N,
    (win0_0.index t (0 : Fin 2) = min t.val 7 ∧ win0_0.index t (1 : Fin 2) = 0)
  ∧ (win0_1.index t (0 : Fin 2) = 0 ∧ win0_1.index t (1 : Fin 2) = 0)
  ∧ (win0_2.index t (0 : Fin 2) = 0 ∧ win0_2.index t (1 : Fin 2) = 0)
  ∧ (win0_3.index t (0 : Fin 2) = 0 ∧ win0_3.index t (1 : Fin 2) = 0)
  ∧ (win0_4.index t (0 : Fin 2) = 0 ∧ win0_4.index t (1 : Fin 2) = 0)
  ∧ (win0_5.index t (0 : Fin 2) = 0 ∧ win0_5.index t (1 : Fin 2) = 0)
  ∧ (win0_6.index t (0 : Fin 2) = t.val - 8 ∧ win0_6.index t (1 : Fin 2) = 0)
  ∧ (win0_7.index t (0 : Fin 2) = min t.val 7 ∧ win0_7.index t (1 : Fin 2) = 0)
  ∧ (win0_8.index t (0 : Fin 2) = t.val - 8 ∧ win0_8.index t (1 : Fin 2) = 0) :=
  (by decide +kernel : ∀ t : Fin grid0.N, _)

/-- The arguments, at their literal types. -/
abbrev xArg (c : Dev nD) : FVec Ideal S8192x256 .f32 := m ((c.tc : Thread nD τ).loc main_arg0)
abbrev hhArg (c : Dev nD) : FVec Ideal S2048x8192 .f32 := m ((c.tc : Thread nD τ).loc main_arg1)
abbrev hgArg (c : Dev nD) : FVec Ideal S8192x2048 .f32 := m ((c.tc : Thread nD τ).loc main_arg2)
abbrev w1Arg (c : Dev nD) : FVec Ideal S256x256 .f32 := m ((c.tc : Thread nD τ).loc main_arg3)
abbrev b1Arg (c : Dev nD) : FVec Ideal S256 .f32 := m ((c.tc : Thread nD τ).loc main_arg4)
abbrev w2Arg (c : Dev nD) : FVec Ideal S256x256 .f32 := m ((c.tc : Thread nD τ).loc main_arg5)
abbrev b2Arg (c : Dev nD) : FVec Ideal S256 .f32 := m ((c.tc : Thread nD τ).loc main_arg6)

/-- The block of `H` at step `t` holds rows `256 · min t 7 …` of `H`. -/
theorem hhBlk_apply (c : Dev nD) (t : Fin cfg0.N) (y : S256x8192.Idx) (k : S2048x8192.Idx)
    (hk0 : (k 0).val = 256 * min t.val 7 + (y 0).val) (hk1 : (k 1).val = (y 1).val) :
    hhBlk (F := Ideal) m c t y = hhArg m c k := by
  obtain ⟨⟨e0, e1⟩, -⟩ := idx_facts t
  unfold hhBlk iblk
  rw [View.read_apply]
  show V m c main_arg1 _ = _
  rw [V_main_arg1]
  show m (c.tc.loc main_arg1) _ = m (c.tc.loc main_arg1) k
  congr 1
  funext a; apply Fin.ext
  match a with
  | ⟨0, _⟩ => show win0_0.index t (0 : Fin 2) * 256 + 1 * (y 0).val = (k 0).val; rw [e0, hk0]; omega
  | ⟨1, _⟩ => show win0_0.index t (1 : Fin 2) * 8192 + 1 * (y 1).val = (k 1).val; rw [e1, hk1]; omega

/-- The block of `G` at step `t` holds rows `512 · (t - 8) …` of `G`. -/
theorem hgBlk_apply (c : Dev nD) (t : Fin cfg0.N) (y : S512x2048.Idx) (k : S8192x2048.Idx)
    (hk0 : (k 0).val = 512 * (t.val - 8) + (y 0).val) (hk1 : (k 1).val = (y 1).val) :
    hgBlk (F := Ideal) m c t y = hgArg m c k := by
  obtain ⟨-, -, -, -, -, -, ⟨e0, e1⟩, -⟩ := idx_facts t
  unfold hgBlk iblk
  rw [View.read_apply]
  show V m c main_arg2 _ = _
  rw [V_main_arg2]
  show m (c.tc.loc main_arg2) _ = m (c.tc.loc main_arg2) k
  congr 1
  funext a; apply Fin.ext
  match a with
  | ⟨0, _⟩ => show win0_6.index t (0 : Fin 2) * 512 + 1 * (y 0).val = (k 0).val; rw [e0, hk0]; omega
  | ⟨1, _⟩ => show win0_6.index t (1 : Fin 2) * 2048 + 1 * (y 1).val = (k 1).val; rw [e1, hk1]; omega

/-- The blocks of `x`, `W₁`, `W₂` are the whole arguments at every step. -/
theorem xBlk_eq (c : Dev nD) (t : Fin cfg0.N) : xBlk (F := Ideal) m c t = xArg m c := by
  obtain ⟨-, ⟨e0, e1⟩, -⟩ := idx_facts t
  funext y
  unfold xBlk iblk
  rw [View.read_apply]
  show V m c main_arg0 _ = _
  rw [V_main_arg0]
  show m (c.tc.loc main_arg0) _ = m (c.tc.loc main_arg0) y
  congr 1
  funext a; apply Fin.ext
  match a with
  | ⟨0, _⟩ => show win0_1.index t (0 : Fin 2) * 8192 + 1 * (y 0).val = (y 0).val; rw [e0]; omega
  | ⟨1, _⟩ => show win0_1.index t (1 : Fin 2) * 256 + 1 * (y 1).val = (y 1).val; rw [e1]; omega

theorem w1Blk_eq (c : Dev nD) (t : Fin cfg0.N) : w1Blk (F := Ideal) m c t = w1Arg m c := by
  obtain ⟨-, -, ⟨e0, e1⟩, -⟩ := idx_facts t
  funext y
  unfold w1Blk iblk
  rw [View.read_apply]
  show V m c main_arg3 _ = _
  rw [V_main_arg3]
  show m (c.tc.loc main_arg3) _ = m (c.tc.loc main_arg3) y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

theorem w2Blk_eq (c : Dev nD) (t : Fin cfg0.N) : w2Blk (F := Ideal) m c t = w2Arg m c := by
  obtain ⟨-, -, -, -, ⟨e0, e1⟩, -⟩ := idx_facts t
  funext y
  unfold w2Blk iblk
  rw [View.read_apply]
  show V m c main_arg5 _ = _
  rw [V_main_arg5]
  show m (c.tc.loc main_arg5) _ = m (c.tc.loc main_arg5) y
  congr 1
  funext a; apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The two bias rows the kernel stages are the bias vectors, recast to one row by the host before the kernel runs. -/
theorem biasRow1_eq (c : Dev nD) : (V m c main_v0 : S1x256.Idx → EReal) = shapeCast S1x256 (b1Arg m c) shapeCasts_S256_S1x256 := by
  dsimp only [Gen.V, Gen.hostOps0]
  after_results
  rfl

theorem biasRow2_eq (c : Dev nD) : (V m c main_v1 : S1x256.Idx → EReal) = shapeCast S1x256 (b2Arg m c) shapeCasts_S256_S1x256 := by
  dsimp only [Gen.V, Gen.hostOps0]
  after_results
  rfl

/-- The staged row of `b₁` at column `f` is `b₁[f]`. -/
theorem b1Blk_apply (c : Dev nD) (t : Fin cfg0.N) (f : Fin 256) : b1Blk (F := Ideal) m c t (ix2 0 f) = b1Arg m c (ix1 f) := by
  obtain ⟨-, -, -, ⟨e0, e1⟩, -⟩ := idx_facts t
  unfold b1Blk iblk
  rw [View.read_apply]
  have hy : ((cfg0.win 3).blk t).view.emb (ix2 0 f) = (ix2 0 f : S1x256.Idx) := by
    funext a; apply Fin.ext
    match a with
    | ⟨0, _⟩ => show win0_3.index t (0 : Fin 2) * 1 + 1 * 0 = 0; rw [e0]
    | ⟨1, _⟩ => show win0_3.index t (1 : Fin 2) * 256 + 1 * f.val = f.val; rw [e1]; omega
  rw [hy]
  show V m c main_v0 _ = _
  rw [biasRow1_eq]
  exact shapeCast_apply _ _ (ix2 0 f) (ix1 f) (by rw [Shape.rowMajor_val_two, Shape.rowMajor_val_one]; show f.val = 0 * 256 + f.val; omega)

/-- The staged row of `b₂` at column `g` is `b₂[g]`. -/
theorem b2Blk_apply (c : Dev nD) (t : Fin cfg0.N) (g : Fin 256) : b2Blk (F := Ideal) m c t (ix2 0 g) = b2Arg m c (ix1 g) := by
  obtain ⟨-, -, -, -, -, ⟨e0, e1⟩, -⟩ := idx_facts t
  unfold b2Blk iblk
  rw [View.read_apply]
  have hy : ((cfg0.win 5).blk t).view.emb (ix2 0 g) = (ix2 0 g : S1x256.Idx) := by
    funext a; apply Fin.ext
    match a with
    | ⟨0, _⟩ => show win0_5.index t (0 : Fin 2) * 1 + 1 * 0 = 0; rw [e0]
    | ⟨1, _⟩ => show win0_5.index t (1 : Fin 2) * 256 + 1 * g.val = g.val; rw [e1]; omega
  rw [hy]
  show V m c main_v1 _ = _
  rw [biasRow2_eq]
  exact shapeCast_apply _ _ (ix2 0 g) (ix1 g) (by rw [Shape.rowMajor_val_two, Shape.rowMajor_val_one]; show g.val = 0 * 256 + g.val; omega)

/-! ## What the steps compute, as rows of the convolution -/

/-- The row of the hyperedge matrices that row `p` of step `t`'s block is. -/
def heRow (t : Fin cfg0.N) (p : Fin 256) : Fin 2048 := ⟨256 * min t.val 7 + p.val, by have := p.isLt; omega⟩
/-- The row of the node matrices that row `q` of step `t`'s block is. -/
def outRow (t : Fin cfg0.N) (q : Fin 512) : Fin 8192 := ⟨512 * (t.val - 8) + q.val, by have := q.isLt; have := t.isLt; have := N24; omega⟩

/-- The first scratch holds the projection `x · W₁ + b₁`. -/
theorem hAll_eq (c : Dev nD) : hAll (F := Ideal) m c = HyperConv.proj (xArg m c) (w1Arg m c) (b1Arg m c) := by
  unfold hAll
  rw [xBlk_eq, w1Blk_eq]
  exact PayValue.pay1_eq_proj _ _ _ _ (b1Blk_apply m c p0)

/-- Step `t`'s block of embeddings is rows `256 · min t 7 …` of `max (H · h) 0`. -/
theorem heBlk_apply (c : Dev nD) (t : Fin cfg0.N) (y : S256x256.Idx) (k : S2048x256.Idx)
    (hk0 : (k 0).val = 256 * min t.val 7 + (y 0).val) (hk1 : (k 1).val = (y 1).val) :
    heBlk (F := Ideal) m c t y = HyperConv.edgeEmb (xArg m c) (hhArg m c) (w1Arg m c) (b1Arg m c) k := by
  obtain ⟨p, f, rfl⟩ : ∃ p f, y = ix2 p f := ⟨y 0, y 1, eq_ix2 y⟩
  have ek : k = ix2 (heRow t p) f := funext fun a => Fin.ext (by match a with | ⟨0, _⟩ => exact hk0 | ⟨1, _⟩ => exact hk1)
  unfold heBlk
  rw [hAll_eq, ek]
  exact PayValue.pay2_eq_gather (hhBlk m c t) _ (hhArg m c) (heRow t)
    (fun p n => hhBlk_apply m c t (ix2 p n) (ix2 (heRow t p) n) rfl rfl) p f

/-- The second scratch, once full, holds `z = e · W₂ + b₂`: row `r` was stored by step `r / 256` as its row `r mod 256`. -/
theorem zAll_eq (c : Dev nD) :
    zAll (F := Ideal) m c
      = HyperConv.back (HyperConv.edgeEmb (xArg m c) (hhArg m c) (w1Arg m c) (b1Arg m c)) (w2Arg m c) (b2Arg m c) := by
  funext y
  obtain ⟨r, g, rfl⟩ : ∃ r g, y = ix2 r g := ⟨y 0, y 1, eq_ix2 y⟩
  have hr : r.val < 2048 := r.isLt
  show k0_pay3 (F := Ideal) (hhBlk m c ⟨r.val / 256, lt_N (by omega)⟩) (hAll m c) (w2Blk m c ⟨r.val / 256, lt_N (by omega)⟩)
      (b2Blk m c ⟨r.val / 256, lt_N (by omega)⟩) (ix2 ⟨r.val % 256, Nat.mod_lt _ (by omega)⟩ g) = _
  rw [hAll_eq, w2Blk_eq]
  refine (PayValue.pay3_eq_back (hhBlk m c ⟨r.val / 256, lt_N (by omega)⟩) _ (w2Arg m c) (b2Blk m c ⟨r.val / 256, lt_N (by omega)⟩)
    (hhArg m c) (b2Arg m c) (heRow ⟨r.val / 256, lt_N (by omega)⟩)
    (fun p n => hhBlk_apply m c _ (ix2 p n) (ix2 (heRow _ p) n) rfl rfl) (b2Blk_apply m c _) ⟨r.val % 256, Nat.mod_lt _ (by omega)⟩ g).trans ?_
  have e : heRow ⟨r.val / 256, lt_N (by omega)⟩ ⟨r.val % 256, Nat.mod_lt _ (by omega)⟩ = r :=
    Fin.ext (by show 256 * min (r.val / 256) 7 + r.val % 256 = r.val; omega)
  rw [e]
  rfl

/-- Step `t`'s block of node outputs is rows `512 · (t - 8) …` of `max (G · z) 0`. -/
theorem outBlk_apply (c : Dev nD) (t : Fin cfg0.N) (y : S512x256.Idx) (k : S8192x256.Idx)
    (hk0 : (k 0).val = 512 * (t.val - 8) + (y 0).val) (hk1 : (k 1).val = (y 1).val) :
    outBlk (F := Ideal) m c t y
      = HyperConv.nodeOut (xArg m c) (hhArg m c) (hgArg m c) (w1Arg m c) (b1Arg m c) (w2Arg m c) (b2Arg m c) k := by
  obtain ⟨q, g, rfl⟩ : ∃ q g, y = ix2 q g := ⟨y 0, y 1, eq_ix2 y⟩
  have ek : k = ix2 (outRow t q) g := funext fun a => Fin.ext (by match a with | ⟨0, _⟩ => exact hk0 | ⟨1, _⟩ => exact hk1)
  unfold outBlk
  rw [zAll_eq, ek]
  exact PayValue.pay4_eq_scatter (hgBlk m c t) _ (hgArg m c) (outRow t)
    (fun q r => hgBlk_apply m c t (ix2 q r) (ix2 (outRow t q) r) rfl rfl) q g

/-! ## From the blocks to the two result arrays

  Each step that writes a result block back writes the rows of the convolution's function that the block covers; the
  blocks written back cover each result array, so the array ends holding the function. -/

/-- An index of the embeddings' array is in step `t`'s block iff each coordinate is in the block's range on its axis. -/
theorem mem_heBlk (t : Fin cfg0.N) (i : S2048x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v2_0).slice (win0_7.rect t)).set ↔ _
  rw [View.set_slice_whole, Rect.mem_set_unit]
  exact Iff.rfl

/-- An index of the node outputs' array is in step `t`'s block iff each coordinate is in the block's range on its axis. -/
theorem mem_outBlk (t : Fin cfg0.N) (i : S8192x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v2_1).slice (win0_8.rect t)).set ↔ _
  rw [View.set_slice_whole, Rect.mem_set_unit]
  exact Iff.rfl

/-- What step `t` writes back to the embeddings' array is block `min t 7` of `max (H · (x · W₁ + b₁)) 0`. -/
theorem flushed_he_eq (c : Dev nD) (t : Fin cfg0.N) :
    (dats (F := Ideal) m 0 c).flushed 7 t
      = ((cfg0.win 7).blk t).view.read (Elt Ideal) (HyperConv.edgeEmb (xArg m c) (hhArg m c) (w1Arg m c) (b1Arg m c)) := by
  show (cfg0.win 7).cut (grid0.coords t) ((dats m 0 c).after 7 t) = _
  rw [after7]
  obtain ⟨-, -, -, -, -, -, -, ⟨e0, e1⟩, -⟩ := idx_facts t
  funext y
  rw [View.read_apply]
  refine heBlk_apply m c (clamp7 t) y (((cfg0.win 7).blk t).view.emb y) ?_ ?_
  · show win0_7.index t (0 : Fin 2) * 256 + 1 * (y 0).val = 256 * min (min t.val 7) 7 + (y 0).val; rw [e0]; omega
  · show win0_7.index t (1 : Fin 2) * 256 + 1 * (y 1).val = (y 1).val; rw [e1]; omega

/-- What step `t` writes back to the node outputs' array is block `t - 8` of the convolution's output. -/
theorem flushed_out_eq (c : Dev nD) (t : Fin cfg0.N) :
    (dats (F := Ideal) m 0 c).flushed 8 t
      = ((cfg0.win 8).blk t).view.read (Elt Ideal)
          (HyperConv.nodeOut (xArg m c) (hhArg m c) (hgArg m c) (w1Arg m c) (b1Arg m c) (w2Arg m c) (b2Arg m c)) := by
  show (cfg0.win 8).cut (grid0.coords t) ((dats m 0 c).after 8 t) = _
  rw [after8]
  obtain ⟨-, -, -, -, -, -, -, -, ⟨e0, e1⟩⟩ := idx_facts t
  funext y
  rw [View.read_apply]
  refine outBlk_apply m c t y (((cfg0.win 8).blk t).view.emb y) ?_ ?_
  · show win0_8.index t (0 : Fin 2) * 512 + 1 * (y 0).val = 512 * (t.val - 8) + (y 0).val; rw [e0]; omega
  · show win0_8.index t (1 : Fin 2) * 256 + 1 * (y 1).val = (y 1).val; rw [e1]; omega

/-- Every row of the embeddings' array is written back: rows of block `b ≤ 6` after step `b`, those of block 7 after the last step. -/
theorem cover_he (i : S2048x256.Idx) : ∃ t : Fin cfg0.N, (cfg0.win 7).flush t = true ∧ i ∈ ((cfg0.win 7).blk t).view.set := by
  have h0 : (i 0).val < 2048 := (i 0).isLt
  have h1 : (i 1).val < 256 := (i 1).isLt
  obtain ⟨n, hn, hfl, hmin⟩ : ∃ n : ℕ, n < 24 ∧ (n < 7 ∨ n = 23) ∧ min n 7 = (i 0).val / 256 := by
    by_cases hb : (i 0).val / 256 < 7
    · exact ⟨(i 0).val / 256, by omega, Or.inl hb, by omega⟩
    · exact ⟨23, by omega, Or.inr rfl, by omega⟩
  refine ⟨⟨n, lt_N hn⟩, ?_, ?_⟩
  · rw [flush7]; exact decide_eq_true hfl
  · obtain ⟨-, -, -, -, -, -, -, ⟨e0, e1⟩, -⟩ := idx_facts ⟨n, lt_N hn⟩
    have e0' : win0_7.index ⟨n, lt_N hn⟩ (0 : Fin 2) = min n 7 := e0
    rw [mem_heBlk]
    intro a
    match a with
    | ⟨0, _⟩ => show win0_7.index ⟨n, lt_N hn⟩ (0 : Fin 2) * 256 ≤ (i 0).val ∧ (i 0).val < win0_7.index ⟨n, lt_N hn⟩ (0 : Fin 2) * 256 + 256; rw [e0']; omega
    | ⟨1, _⟩ => show win0_7.index ⟨n, lt_N hn⟩ (1 : Fin 2) * 256 ≤ (i 1).val ∧ (i 1).val < win0_7.index ⟨n, lt_N hn⟩ (1 : Fin 2) * 256 + 256; rw [e1]; omega

/-- Every row of the node outputs' array is written back: rows of block `b` after step `8 + b`. -/
theorem cover_out (i : S8192x256.Idx) : ∃ t : Fin cfg0.N, (cfg0.win 8).flush t = true ∧ i ∈ ((cfg0.win 8).blk t).view.set := by
  have h0 : (i 0).val < 8192 := (i 0).isLt
  have h1 : (i 1).val < 256 := (i 1).isLt
  have hn : 8 + (i 0).val / 512 < 24 := by omega
  refine ⟨⟨8 + (i 0).val / 512, lt_N hn⟩, ?_, ?_⟩
  · rw [flush8]; exact decide_eq_true (Nat.le_add_right 8 _)
  · obtain ⟨-, -, -, -, -, -, -, -, ⟨e0, e1⟩⟩ := idx_facts ⟨8 + (i 0).val / 512, lt_N hn⟩
    have e0' : win0_8.index ⟨8 + (i 0).val / 512, lt_N hn⟩ (0 : Fin 2) = 8 + (i 0).val / 512 - 8 := e0
    rw [mem_outBlk]
    intro a
    match a with
    | ⟨0, _⟩ => show win0_8.index ⟨8 + (i 0).val / 512, lt_N hn⟩ (0 : Fin 2) * 512 ≤ (i 0).val ∧ (i 0).val < win0_8.index ⟨8 + (i 0).val / 512, lt_N hn⟩ (0 : Fin 2) * 512 + 512; rw [e0']; omega
    | ⟨1, _⟩ => show win0_8.index ⟨8 + (i 0).val / 512, lt_N hn⟩ (1 : Fin 2) * 256 ≤ (i 1).val ∧ (i 1).val < win0_8.index ⟨8 + (i 0).val / 512, lt_N hn⟩ (1 : Fin 2) * 256 + 256; rw [e1]; omega

/-- After the run the embeddings' array holds `max (H · (x · W₁ + b₁)) 0`. -/
theorem final7 (c : Dev nD) :
    (Cert.KernelIdeal.Body.dats (F := Ideal) m 0 c).arrAt 7 cfg0.N
      = HyperConv.edgeEmb (m ((c.tc : Thread nD τ).loc main_arg0)) (m ((c.tc : Thread nD τ).loc main_arg1))
          (m ((c.tc : Thread nD τ).loc main_arg3)) (m ((c.tc : Thread nD τ).loc main_arg4)) :=
  (dats (F := Ideal) m 0 c).arrAt_eq_of_cover 7 (HyperConv.edgeEmb (xArg m c) (hhArg m c) (w1Arg m c) (b1Arg m c))
    (fun t _ => flushed_he_eq m c t) cover_he

/-- After the run the node outputs' array holds `max (G · (e · W₂ + b₂)) 0`. -/
theorem final8 (c : Dev nD) :
    (Cert.KernelIdeal.Body.dats (F := Ideal) m 0 c).arrAt 8 cfg0.N
      = HyperConv.nodeOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  (dats (F := Ideal) m 0 c).arrAt_eq_of_cover 8
    (HyperConv.nodeOut (xArg m c) (hhArg m c) (hgArg m c) (w1Arg m c) (b1Arg m c) (w2Arg m c) (b2Arg m c))
    (fun t _ => flushed_out_eq m c t) cover_out

end Cert.KernelIdeal.BodyValue

end
-- ==== Proof.RefValue.lean ====
import proofs.«169483_g28836410425909_cont_9to1_1670_4_alg».proof.Defs
import proofs.«169483_g28836410425909_cont_9to1_1670_4_alg».proof.Proof.Gen.ReferenceIdeal.Run
import proofs.«169483_g28836410425909_cont_9to1_1670_4_alg».proof.Proof.Gen.ReferenceIdeal.Read
import proofs.«169483_g28836410425909_cont_9to1_1670_4_alg».proof.Proof.Spec

/-!
  The reference program computes the hypergraph convolution of `Spec.lean`: its two results are
  `HyperConv.nodeOut` and `HyperConv.edgeEmb` of its arguments, entry by entry. Each stage of the
  program (a matrix product, a bias row broadcast and added, a rectifier against a splat zero) is read
  at an index and identified with the corresponding stage of the specification.
-/

noncomputable section

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.StableHlo Idealize.ShloMosaic.ValueIdx

/-! ## The index functions of the four products and the two bias rows, in coordinates -/

theorem lidx_v0 (i : S8192x256.Idx) (k : Fin 256) : lidx_main_v0 i k = ix2 (i 0) k :=
  funext fun a => by match a with | ⟨0, _⟩ => rfl | ⟨1, _⟩ => rfl
theorem ridx_v0 (i : S8192x256.Idx) (k : Fin 256) : ridx_main_v0 i k = ix2 k (i 1) :=
  funext fun a => by match a with | ⟨0, _⟩ => rfl | ⟨1, _⟩ => rfl
theorem idx_v2 (i : S8192x256.Idx) : idx_main_v1 (idx_main_v2 i) = ix1 (i 1) :=
  funext fun a => by match a with | ⟨0, _⟩ => rfl

theorem lidx_v4 (i : S2048x256.Idx) (k : Fin 8192) : lidx_main_v4 i k = ix2 (i 0) k :=
  funext fun a => by match a with | ⟨0, _⟩ => rfl | ⟨1, _⟩ => rfl
theorem ridx_v4 (i : S2048x256.Idx) (k : Fin 8192) : ridx_main_v4 i k = ix2 k (i 1) :=
  funext fun a => by match a with | ⟨0, _⟩ => rfl | ⟨1, _⟩ => rfl

theorem lidx_v6 (i : S2048x256.Idx) (k : Fin 256) : lidx_main_v6 i k = ix2 (i 0) k :=
  funext fun a => by match a with | ⟨0, _⟩ => rfl | ⟨1, _⟩ => rfl
theorem ridx_v6 (i : S2048x256.Idx) (k : Fin 256) : ridx_main_v6 i k = ix2 k (i 1) :=
  funext fun a => by match a with | ⟨0, _⟩ => rfl | ⟨1, _⟩ => rfl
theorem idx_v8 (i : S2048x256.Idx) : idx_main_v7 (idx_main_v8 i) = ix1 (i 1) :=
  funext fun a => by match a with | ⟨0, _⟩ => rfl

theorem lidx_v10 (i : S8192x256.Idx) (k : Fin 2048) : lidx_main_v10 i k = ix2 (i 0) k :=
  funext fun a => by match a with | ⟨0, _⟩ => rfl | ⟨1, _⟩ => rfl
theorem ridx_v10 (i : S8192x256.Idx) (k : Fin 2048) : ridx_main_v10 i k = ix2 k (i 1) :=
  funext fun a => by match a with | ⟨0, _⟩ => rfl | ⟨1, _⟩ => rfl

/-! ## The stages -/

/-- The first product plus its bias row is `h = x · W₁ + b₁`. -/
theorem v3_eq (x0 : (⟨S8192x256, .f32⟩ : BufTy).Contents (Elt Ideal)) (x3 : (⟨S256x256, .f32⟩ : BufTy).Contents (Elt Ideal))
    (x4 : (⟨S256, .f32⟩ : BufTy).Contents (Elt Ideal)) :
    val_main_v3 (F := Ideal) x0 x3 x4 = HyperConv.proj x0 x3 x4 := by
  funext i
  rw [val_main_v3_apply, val_main_v0_apply, val_main_v2_apply, val_main_v1_apply, idx_v2]
  simp only [lidx_v0, ridx_v0]
  rfl

/-- The rectified second product is `e = max (H · h) 0`. -/
theorem v5_eq (x0 : (⟨S8192x256, .f32⟩ : BufTy).Contents (Elt Ideal)) (x1 : (⟨S2048x8192, .f32⟩ : BufTy).Contents (Elt Ideal))
    (x3 : (⟨S256x256, .f32⟩ : BufTy).Contents (Elt Ideal)) (x4 : (⟨S256, .f32⟩ : BufTy).Contents (Elt Ideal)) :
    val_main_v5 (F := Ideal) x0 x1 x3 x4 = HyperConv.edgeEmb x0 x1 x3 x4 := by
  funext i
  rw [val_main_v5_apply, val_main_v4_apply, val_main_call0_v0_apply, val_main_call0_cst_apply, v3_eq,
    Ideal.ofBits_def, Ideal.ofBits_zero_f32]
  simp only [lidx_v4, ridx_v4]
  rfl

/-- The third product plus its bias row is `z = e · W₂ + b₂`. -/
theorem v9_eq (x0 : (⟨S8192x256, .f32⟩ : BufTy).Contents (Elt Ideal)) (x1 : (⟨S2048x8192, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v9 (F := Ideal) x0 x1 x3 x4 x5 x6 = HyperConv.back (HyperConv.edgeEmb x0 x1 x3 x4) x5 x6 := by
  funext i
  rw [val_main_v9_apply, val_main_v6_apply, val_main_v8_apply, val_main_v7_apply, idx_v8, v5_eq]
  simp only [lidx_v6, ridx_v6]
  rfl

/-- The rectified fourth product is `out = max (G · z) 0`. -/
theorem v11_eq (x0 : (⟨S8192x256, .f32⟩ : BufTy).Contents (Elt Ideal)) (x1 : (⟨S2048x8192, .f32⟩ : BufTy).Contents (Elt Ideal))
    (x2 : (⟨S8192x2048, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v11 (F := Ideal) x0 x1 x2 x3 x4 x5 x6 = HyperConv.nodeOut x0 x1 x2 x3 x4 x5 x6 := by
  funext i
  rw [val_main_v11_apply, val_main_v10_apply, val_main_call1_v0_apply, val_main_call1_cst_apply, v9_eq,
    Ideal.ofBits_def, Ideal.ofBits_zero_f32]
  simp only [lidx_v10, ridx_v10]
  rfl

/-! ## The run -/

/-- Every weakly fair execution of the reference terminates with its two results at the specification's
    `nodeOut` and `edgeEmb` of the arguments' launch contents, the arguments unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v11) = HyperConv.nodeOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v5) = HyperConv.edgeEmb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run (Cert.ReferenceIdeal.defs (F := Ideal)) _ _).mono (fun _ h c => by
      obtain ⟨h11, h5, rest⟩ := h c
      exact ⟨h11.trans ((val_main_v11_eq _ _ _ _ _ _ _).trans (v11_eq _ _ _ _ _ _ _)),
        h5.trans ((val_main_v5_eq _ _ _ _).trans (v5_eq _ _ _ _)), rest⟩)
    (Cert.ReferenceIdeal.Value.run (F := Ideal) m ρ)

end Cert.ReferenceIdeal.RefValue

end
-- ==== Proof.lean ====
/-
  The certificate of the fused hypergraph convolution: one pipelined kernel of 24 grid steps against four
  host matrix products. Over the extended reals both compute

      h = x · W₁ + b₁,   e = max (H · h) 0,   z = e · W₂ + b₂,   out = max (G · z) 0

  and return `(out, e)`. The kernel computes `h` once, at step 0, into a scratch buffer; steps 0 to 7 each
  take 256 rows of `H`, store that block of `e` to its output window and the block's back-projection to
  256 rows of a second scratch buffer holding `z`; steps 8 to 23 each take 512 rows of `G` and store that
  block of `out`. Every sum is the same finite sum on both sides (a change of float format is the identity on
  the extended reals, and a matrix unit's product into a zero accumulator is the plain sum), so no law beyond
  `0 + s = s` joins them and finiteness of the inputs is never used.

  The three frames: each kernel program's by its body run in the three phases of the guards against the
  pipeline's schedule (the invariant between steps: the first scratch holds `h`, the second agrees with `z` on
  the rows stored so far; the window of `e` is idle after step 7 and written back at the end with what step 7
  left in it); the reference's by its run. The idealization rewrote nothing, so `preserves` is `True`.
-/
import proofs.«169483_g28836410425909_cont_9to1_1670_4_alg».proof.Defs
import proofs.«169483_g28836410425909_cont_9to1_1670_4_alg».proof.Proof.Gen.Kernel
import proofs.«169483_g28836410425909_cont_9to1_1670_4_alg».proof.Proof.Gen.KernelIdeal
import proofs.«169483_g28836410425909_cont_9to1_1670_4_alg».proof.Proof.Gen.ReferenceIdeal
import proofs.«169483_g28836410425909_cont_9to1_1670_4_alg».proof.Proof.Gen.Pre_finite_inputs
import proofs.«169483_g28836410425909_cont_9to1_1670_4_alg».proof.Proof.KFrame
import proofs.«169483_g28836410425909_cont_9to1_1670_4_alg».proof.Proof.KIFrame
import proofs.«169483_g28836410425909_cont_9to1_1670_4_alg».proof.Proof.KIValue
import proofs.«169483_g28836410425909_cont_9to1_1670_4_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.RefValue.run_spec m ρ)

/-- The idealized kernel's run with both results named: the two output arrays end at the convolution's two
    functions of the argument arrays, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2_1) = HyperConv.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v2_0) = HyperConv.edgeEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c =>
    ⟨((h c).1 8).trans (Cert.KernelIdeal.BodyValue.final8 m c),
      ((h c).1 7).trans (Cert.KernelIdeal.BodyValue.final7 m c),
      ((h c).1 1).trans (((Cert.KernelIdeal.Body.dats m 0 c).arrAt_in 1 rfl _).trans ((Cert.KernelIdeal.Body.A_eq m c 1).trans (Cert.KernelIdeal.Gen.V_main_arg0 m c))),
      ((h c).1 0).trans (((Cert.KernelIdeal.Body.dats m 0 c).arrAt_in 0 rfl _).trans ((Cert.KernelIdeal.Body.A_eq m c 0).trans (Cert.KernelIdeal.Gen.V_main_arg1 m c))),
      ((h c).1 6).trans (((Cert.KernelIdeal.Body.dats m 0 c).arrAt_in 6 rfl _).trans ((Cert.KernelIdeal.Body.A_eq m c 6).trans (Cert.KernelIdeal.Gen.V_main_arg2 m c))),
      ((h c).1 2).trans (((Cert.KernelIdeal.Body.dats m 0 c).arrAt_in 2 rfl _).trans ((Cert.KernelIdeal.Body.A_eq m c 2).trans (Cert.KernelIdeal.Gen.V_main_arg3 m c))),
      ((h c).2 Cert.KernelIdeal.main_arg4 (Pipeline.mem_restRefs_of Cert.KernelIdeal.main_arg4 (by decide) (by decide))).trans (Cert.KernelIdeal.Gen.V_main_arg4 m c),
      ((h c).1 4).trans (((Cert.KernelIdeal.Body.dats m 0 c).arrAt_in 4 rfl _).trans ((Cert.KernelIdeal.Body.A_eq m c 4).trans (Cert.KernelIdeal.Gen.V_main_arg5 m c))),
      ((h c).2 Cert.KernelIdeal.main_arg6 (Pipeline.mem_restRefs_of Cert.KernelIdeal.main_arg6 (by decide) (by decide))).trans (Cert.KernelIdeal.Gen.V_main_arg6 m c)⟩)
    (Cert.KernelIdeal.Body.run_main (F := Ideal) m ρ)

/-- From memories that agree on the arguments both programs end at the same two arrays. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ?_) (Cert.ReferenceIdeal.RefValue.run_spec m' ρ')
  obtain ⟨e0, e1, e2, e3, e4, e5, e6⟩ := hagree c
  refine ⟨(h c).1.trans ?_, (h c).2.1.trans ?_, (h c).2.2⟩
  · rw [e0, e1, e2, e3, e4, e5, e6]
  · rw [e0, e1, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
